-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1024x512 : Shape := ⟨2, ![1024, 512]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 82
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S8192x512, .bf16⟩
  | .hbm, ⟨23, _⟩ => ⟨S8192x512, .bf16⟩
  | .hbm, ⟨24, _⟩ => ⟨S8192x1, .f32⟩
  | .hbm, ⟨25, _⟩ => ⟨S8192, .f32⟩
  | .hbm, ⟨26, _⟩ => ⟨S8192x1, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x1024_S1024 : S1024x1024.Reduces [1] S1024
  shapeCasts_S1024_S1024x1 : S1024.ShapeCasts S1024x1
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v11) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_16 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S8192x8192_S8192_d1 : S8192x8192.ReducesTo [1] S8192
  bcast_S_S8192 : S_.BroadcastsInDim S8192 (![] : Fin 0 → Fin S8192.rank)
  reducesTo_S8192x8192_S8192_d0 : S8192x8192.ReducesTo [0] S8192
  reducesTo_S8192_S_d0 : S8192.ReducesTo [0] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.KbBody0.lean ====
/-
  Region 0 of the program (the tiled row-maximum kernel, call 0), at any float instance and at a PARAMETER `V`, the contents
  of the buffers when the region is entered.

  The grid is 8 × 8: point `t = 8 i + j` pairs block `i` of 1024 rows of the first operand with block `j` of 1024 rows of the
  second. Per row of block `i` the body keeps, in its scratch column, the largest inner product met so far: at `j = 0` the
  column is reset to `-∞` before the tile's row maxima are folded in, at every point the tile's row maxima are folded in,
  and at `j = 7` the column is copied to the output block, which the pipeline then writes back. So the scratch after point
  `t` is `accAt0 t`: the tile fold applied to `-∞` where `t ≡ 0 (mod 8)`, to `accAt0 (t - 1)` elsewhere. The three runs
  below are the body in its three control cases; `dat0` is the pipeline's proof data with the scratch tracked by the
  invariant `PhiS0`; `body_obligation0` is what the launch asks of the body.
-/
import proofs.«167242_j63737314673124_1_alg».proof.Proof.Gen.Kernel.Launch
import proofs.«167242_j63737314673124_1_alg».proof.Proof.Gen.Kernel.Skeleton
import proofs.«167242_j63737314673124_1_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of every access of the body: the origin, however it is spelt. -/
theorem origin2 : (![0, 0] : Fin 2 → ℕ) = fun _ => 0 := by funext a; fin_cases a <;> rfl

/-! ## The body's two conditions, decided over the grid -/

/-- `j = 0`: the first tile of a block of rows. -/
abbrev isFirst0 (i : grid0.Coords) : Prop := (Scalar.cmpi .ne (Scalar.extui (Scalar.cmpi .eq (BitVec.ofNat 32 (i 1).val) 0#32)) 0#32) = 1#1
/-- `j = 7`: the last tile of a block of rows. -/
abbrev isLast0 (i : grid0.Coords) : Prop := k0_cond2 i = 1#1

theorem isFirst0_iff : ∀ t : Fin cfg0.N, isFirst0 (grid0.coords t) ↔ t.val % 8 = 0 :=
  (by decide +kernel : ∀ t : Fin grid0.N, isFirst0 (grid0.coords t) ↔ t.val % 8 = 0)
theorem isLast0_iff : ∀ t : Fin cfg0.N, isLast0 (grid0.coords t) ↔ t.val % 8 = 7 :=
  (by decide +kernel : ∀ t : Fin grid0.N, isLast0 (grid0.coords t) ↔ t.val % 8 = 7)

/-- The two operand windows are never idle; the output window is idle, and not written back, off the last tile, and
    live on it. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬ t.val % 8 = 7 → cfg0.idle 2 (grid0.coords t) = true := by decide +kernel
theorem noFlush0_2 : ∀ t : Fin cfg0.N, ¬ t.val % 8 = 7 → (cfg0.win 2).flush t = false := by decide +kernel
theorem live0_2 : ∀ t : Fin cfg0.N, t.val % 8 = 7 → cfg0.idle 2 (grid0.coords t) = false := by decide +kernel

/-! ## The body in its three cases -/

set_option maxHeartbeats 1000000 in
/-- First tile of a block of rows (not the last): the scratch, at anything, ends at the tile fold of `-∞`; the operands'
    buffers and the idle output's are handed back as found. -/
theorem runFirst0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : isFirst0 i) (hc1 : ¬isLast0 i)
    (x0 x1 : Vec F S1024x512 .bf16) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__rowmax_kernel i arg2 harg2 arg3 harg3 arg4 harg4 arg5 harg5) K := by
  simp only [cc0__rowmax_kernel_eq_skeleton]; unfold cc0__rowmax_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons_self, View.mem_set_unit_zero origin2 inb_S1024x1_S1024x1_0_0 y⟩),
    View.canon_cons_unit_zero origin2]
  sl_unfold_run_names
  simp only [View.readAt_eq_ld, harg2.read_unread, harg3.read_unread, View.ld_unit_zero (S := S1024x512) origin2,
    View.readCov_unit_zero (S := S1024x1) _ origin2]

set_option maxHeartbeats 1000000 in
/-- A tile that is neither first nor last: the scratch, at `xs`, ends at the tile fold of `xs`. -/
theorem runMid0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : ¬isFirst0 i) (hc1 : ¬isLast0 i)
    (x0 x1 : Vec F S1024x512 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__rowmax_kernel i arg2 harg2 arg3 harg3 arg4 harg4 arg5 harg5) K := by
  simp only [cc0__rowmax_kernel_eq_skeleton]; unfold cc0__rowmax_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons_self, View.mem_set_unit_zero origin2 inb_S1024x1_S1024x1_0_0 y⟩),
    View.canon_cons_unit_zero origin2]
  sl_unfold_run_names
  simp only [View.readAt_eq_ld, harg2.read_unread, harg3.read_unread, harg5.read_unread, View.ld_unit_zero (S := S1024x512) origin2,
    View.ld_unit_zero (S := S1024x1) origin2]

set_option maxHeartbeats 1000000 in
/-- The last tile of a block of rows: the scratch, at `xs`, ends at the tile fold of `xs`, and the output's buffer, at
    anything, ends at the same column. -/
theorem runLast0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : ¬isFirst0 i) (hc1 : isLast0 i)
    (x0 x1 : Vec F S1024x512 .bf16) (xs : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__rowmax_kernel i arg2 harg2 arg3 harg3 arg4 harg4 arg5 harg5) K := by
  simp only [cc0__rowmax_kernel_eq_skeleton]; unfold cc0__rowmax_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [View.read_writes_eq_canon _ _ _ (fun y => ⟨_, List.mem_cons_self, View.mem_set_unit_zero origin2 inb_S1024x1_S1024x1_0_0 y⟩),
      View.canon_unit_zero origin2]
    sl_unfold_run_names
    simp only [View.readAt_eq_ld, harg2.read_unread, harg3.read_unread, harg5.read_unread, View.ld_unit_zero (S := S1024x512) origin2,
      View.ld_unit_zero (S := S1024x1) origin2, View.readCov_unit_zero (S := S1024x1) _ origin2]
  iexists _; isplitr
  swap; · iexact HS
  ipureintro
  sl_unfold_run_names
  rw [View.read_writes_eq_canon _ _ _ (fun y => ⟨_, List.mem_cons_self, View.mem_set_unit_zero origin2 inb_S1024x1_S1024x1_0_0 y⟩),
    View.canon_cons_unit_zero origin2]
  simp only [View.readAt_eq_ld, harg2.read_unread, harg3.read_unread, harg5.read_unread, View.ld_unit_zero (S := S1024x512) origin2,
    View.ld_unit_zero (S := S1024x1) origin2]

/-! ## The blocks, the running maximum, the invariant -/

section Region
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two operand blocks at point `t`, at their literal type. -/
abbrev rowsA0 (c : Dev nD) (t : Fin cfg0.N) : Vec F S1024x512 .bf16 := blk0 V c 0 t
abbrev rowsB0 (c : Dev nD) (t : Fin cfg0.N) : Vec F S1024x512 .bf16 := blk0 V c 1 t

/-- An operand window's current staging buffer holds its block at every point, fetched there or not (unfetched, the
    block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- THE RUNNING MAXIMUM: the scratch column after the body at position `n`. -/
def accAt0 (c : Dev nD) : (n : ℕ) → n < cfg0.N → Vec F S1024x1 .f32
  | 0, hn => k0_pay2 (rowsA0 V c ⟨0, hn⟩) (rowsB0 V c ⟨0, hn⟩) (k0_pay1 (F := F))
  | n + 1, hn => k0_pay2 (rowsA0 V c ⟨n + 1, hn⟩) (rowsB0 V c ⟨n + 1, hn⟩)
      (if (n + 1) % 8 = 0 then k0_pay1 (F := F) else accAt0 c n (Nat.lt_of_succ_lt hn))

/-- At the first tile of a block of rows it starts from `-∞`; -/
theorem accAt0_first (c : Dev nD) (t : Fin cfg0.N) (h : t.val % 8 = 0) :
    accAt0 V c t.val t.isLt = k0_pay2 (rowsA0 V c t) (rowsB0 V c t) (k0_pay1 (F := F)) := by
  obtain ⟨n, hn⟩ := t
  cases n with
  | zero => rfl
  | succ n => exact congrArg (k0_pay2 _ _) (if_pos h)

/-- elsewhere from what the point before left. -/
theorem accAt0_next (c : Dev nD) (t : Fin cfg0.N) (h : ¬ t.val % 8 = 0) :
    accAt0 V c t.val t.isLt = k0_pay2 (rowsA0 V c t) (rowsB0 V c t) (accAt0 V c (t.val - 1) (Nat.lt_of_le_of_lt (Nat.sub_le _ _) t.isLt)) := by
  obtain ⟨n, hn⟩ := t
  cases n with
  | zero => exact absurd (Nat.zero_mod _) h
  | succ n => exact congrArg (k0_pay2 _ _) (if_neg h)

/-- The kernel's scratch column, a whole scoped buffer of its own. -/
abbrev scratch0 : Memref sig .tc .vmem S1024x1 .f32 := Memref.whole cc0_scratch0

/-- The core's other scoped buffers outside this call's staging (the other call's staging and scratch), each at some
    contents: the body never touches them. -/
abbrev others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The core's scoped buffers that are no staging buffer of this call: its scratch column, then the others. -/
theorem scopedRest0_own (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) :=
  Pipeline.scopedRest_eq_of_list spec0 c [cc0_scratch0, cc1_stg0_0, cc1_stg0_1, cc1_stg1_0, cc1_stg1_1, cc1_stg2_0, cc1_stg2_1, cc1_scratch0] (by decide) (by decide)

/-- The launch's invariant with the scratch column singled out. -/
theorem PhiA0_eq (c : Dev nD) :
    (Pipeline.ΦA spec0 c : sProp 𝕄)
      = iprop(((∃ d, owns (c : Thread nD τ) scratch0 fullShare d) ∗ others0 c) ∗ (∃ r, prngReg c r)) := by
  unfold Pipeline.ΦA; rw [scopedRest0_own]; simp only [scratch0, owns_whole]; rfl

/-- The region's invariant before position `n`: before the first point the launch's (the scratch at anything),
    afterwards the scratch at the running maximum the point before left. -/
def PhiS0 (c : Dev nD) : (n : ℕ) → n ≤ cfg0.N → sProp 𝕄
  | 0, _ => Pipeline.ΦA spec0 c
  | n + 1, hn => iprop((owns (c : Thread nD τ) scratch0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scratch0 fullShare (accAt0 V c n hn) ∗ others0 c) ∗ (∃ r, prngReg c r)) := rfl
theorem PhiS0_pos (c : Dev nD) (n : ℕ) (h : n ≤ cfg0.N) (hz : n ≠ 0) :
    PhiS0 V c n h = iprop((owns (c : Thread nD τ) scratch0 fullShare (accAt0 V c (n - 1) (by omega)) ∗ others0 c) ∗ (∃ r, prngReg c r)) := by
  cases n with
  | zero => exact absurd rfl hz
  | succ n => rfl

/-! ## The pipeline's proof data -/

/-- The arrays as the region finds them; after the body each operand's buffer at its block and the output's at the running
    maximum (consulted only on the last tile of a block of rows, where the body stores it); the invariant `PhiS0`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' buffers hold their blocks; the point is a first, a middle or a last tile of its
    block of rows; the invariant hands the body the scratch at what the point before left (at anything before the very
    first point, and a first tile does not read it) and takes it back at this point's running maximum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  have hN : t.val < 64 := lt_of_lt_of_eq t.isLt (show cfg0.N = 64 from N_0)
  by_cases h7 : t.val % 8 = 7
  · have h0 : ¬ t.val % 8 = 0 := by omega
    have hz : t.val ≠ 0 := by omega
    rw [show (dat0 V c).leavesExact 2 t = owns (c : Thread nD τ) (st0_2 t) fullShare ((dat0 V c).after 2 t) from by
      unfold Dat.leavesExact; rw [live0_2 t h7], after0_2]
    rw [accAt0_next V c t h0, Phi0_castSucc V c t, PhiS0_pos V c _ _ hz]
    iintro ⟨⟨⟨HS, Hr⟩, Hg⟩, Ho, ⟨%d0, H0⟩, ⟨%d1, H1⟩, ⟨%d2, H2⟩⟩
    iapply (runLast0 c (grid0.coords t) _ _ _ _ _ _ _ _ (fun h => h0 ((isFirst0_iff t).mp h)) ((isLast0_iff t).mpr h7) (rowsA0 V c t) (rowsB0 V c t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat0 V c) 2 t (idle0_2 t h7) (noFlush0_2 t h7)]
    by_cases h0 : t.val % 8 = 0
    · rw [accAt0_first V c t h0]
      by_cases hz : t.val = 0
      · rw [Phi0_castSucc V c t, PhiS0_zero V c _ _ hz, PhiA0_eq]
        iintro ⟨⟨⟨HS, Hr⟩, Hg⟩, Ho, ⟨%d0, H0⟩, ⟨%d1, H1⟩, ⟨%d2, H2⟩⟩
        iapply (runFirst0 c (grid0.coords t) _ _ _ _ _ _ _ _ ((isFirst0_iff t).mpr h0) (fun h => h7 ((isLast0_iff t).mp h)) (rowsA0 V c t) (rowsB0 V c t) _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [Phi0_castSucc V c t, PhiS0_pos V c _ _ hz]
        iintro ⟨⟨⟨HS, Hr⟩, Hg⟩, Ho, ⟨%d0, H0⟩, ⟨%d1, H1⟩, ⟨%d2, H2⟩⟩
        iapply (runFirst0 c (grid0.coords t) _ _ _ _ _ _ _ _ ((isFirst0_iff t).mpr h0) (fun h => h7 ((isLast0_iff t).mp h)) (rowsA0 V c t) (rowsB0 V c t) _ Set.univ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · have hz : t.val ≠ 0 := fun e => h0 (by rw [e])
      rw [accAt0_next V c t h0, Phi0_castSucc V c t, PhiS0_pos V c _ _ hz]
      iintro ⟨⟨⟨HS, Hr⟩, Hg⟩, Ho, ⟨%d0, H0⟩, ⟨%d1, H1⟩, ⟨%d2, H2⟩⟩
      iapply (runMid0 c (grid0.coords t) _ _ _ _ _ _ _ _ (fun h => h0 ((isFirst0_iff t).mp h)) (fun h => h7 ((isLast0_iff t).mp h)) (rowsA0 V c t) (rowsB0 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point; -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- after the last point the running maximum's name is forgotten and the launch's invariant is back. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hr⟩, Hg⟩
  isplitl [HS Hr]
  · isplitl [HS]; · iexists _; iexact HS
    iexact Hr
  iexact Hg

end Region

end Cert.Kernel.Hand

end
-- ==== Proof.KbBody1.lean ====
/-
  Region 1 of the program (the tiled row-maximum kernel, call 1), at any float instance and at a PARAMETER `V`, the contents
  of the buffers when the region is entered.

  The grid is 8 × 8: point `t = 8 i + j` pairs block `i` of 1024 rows of the first operand with block `j` of 1024 rows of the
  second. Per row of block `i` the body keeps, in its scratch column, the largest inner product met so far: at `j = 0` the
  column is reset to `-∞` before the tile's row maxima are folded in, at every point the tile's row maxima are folded in,
  and at `j = 7` the column is copied to the output block, which the pipeline then writes back. So the scratch after point
  `t` is `accAt1 t`: the tile fold applied to `-∞` where `t ≡ 0 (mod 8)`, to `accAt1 (t - 1)` elsewhere. The three runs
  below are the body in its three control cases; `dat1` is the pipeline's proof data with the scratch tracked by the
  invariant `PhiS1`; `body_obligation1` is what the launch asks of the body.
-/
import proofs.«167242_j63737314673124_1_alg».proof.Proof.Gen.Kernel.Launch
import proofs.«167242_j63737314673124_1_alg».proof.Proof.Gen.Kernel.Skeleton
import proofs.«167242_j63737314673124_1_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic
import proofs.«167242_j63737314673124_1_alg».proof.Proof.KbBody0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, decided over the grid -/

/-- `j = 0`: the first tile of a block of rows. -/
abbrev isFirst1 (i : grid1.Coords) : Prop := (Scalar.cmpi .ne (Scalar.extui (Scalar.cmpi .eq (BitVec.ofNat 32 (i 1).val) 0#32)) 0#32) = 1#1
/-- `j = 7`: the last tile of a block of rows. -/
abbrev isLast1 (i : grid1.Coords) : Prop := k1_cond2 i = 1#1

theorem isFirst1_iff : ∀ t : Fin cfg1.N, isFirst1 (grid1.coords t) ↔ t.val % 8 = 0 :=
  (by decide +kernel : ∀ t : Fin grid1.N, isFirst1 (grid1.coords t) ↔ t.val % 8 = 0)
theorem isLast1_iff : ∀ t : Fin cfg1.N, isLast1 (grid1.coords t) ↔ t.val % 8 = 7 :=
  (by decide +kernel : ∀ t : Fin grid1.N, isLast1 (grid1.coords t) ↔ t.val % 8 = 7)

/-- The two operand windows are never idle; the output window is idle, and not written back, off the last tile, and
    live on it. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬ t.val % 8 = 7 → cfg1.idle 2 (grid1.coords t) = true := by decide +kernel
theorem noFlush1_2 : ∀ t : Fin cfg1.N, ¬ t.val % 8 = 7 → (cfg1.win 2).flush t = false := by decide +kernel
theorem live1_2 : ∀ t : Fin cfg1.N, t.val % 8 = 7 → cfg1.idle 2 (grid1.coords t) = false := by decide +kernel

/-! ## The body in its three cases -/

set_option maxHeartbeats 1000000 in
/-- First tile of a block of rows (not the last): the scratch, at anything, ends at the tile fold of `-∞`; the operands'
    buffers and the idle output's are handed back as found. -/
theorem runFirst1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : isFirst1 i) (hc1 : ¬isLast1 i)
    (x0 x1 : Vec F S1024x512 .bf16) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__rowmax_kernel i arg2 harg2 arg3 harg3 arg4 harg4 arg5 harg5) K := by
  simp only [cc1__rowmax_kernel_eq_skeleton]; unfold cc1__rowmax_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons_self, View.mem_set_unit_zero origin2 inb_S1024x1_S1024x1_0_0 y⟩),
    View.canon_cons_unit_zero origin2]
  sl_unfold_run_names
  simp only [View.readAt_eq_ld, harg2.read_unread, harg3.read_unread, View.ld_unit_zero (S := S1024x512) origin2,
    View.readCov_unit_zero (S := S1024x1) _ origin2]

set_option maxHeartbeats 1000000 in
/-- A tile that is neither first nor last: the scratch, at `xs`, ends at the tile fold of `xs`. -/
theorem runMid1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : ¬isFirst1 i) (hc1 : ¬isLast1 i)
    (x0 x1 : Vec F S1024x512 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__rowmax_kernel i arg2 harg2 arg3 harg3 arg4 harg4 arg5 harg5) K := by
  simp only [cc1__rowmax_kernel_eq_skeleton]; unfold cc1__rowmax_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons_self, View.mem_set_unit_zero origin2 inb_S1024x1_S1024x1_0_0 y⟩),
    View.canon_cons_unit_zero origin2]
  sl_unfold_run_names
  simp only [View.readAt_eq_ld, harg2.read_unread, harg3.read_unread, harg5.read_unread, View.ld_unit_zero (S := S1024x512) origin2,
    View.ld_unit_zero (S := S1024x1) origin2]

set_option maxHeartbeats 1000000 in
/-- The last tile of a block of rows: the scratch, at `xs`, ends at the tile fold of `xs`, and the output's buffer, at
    anything, ends at the same column. -/
theorem runLast1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : ¬isFirst1 i) (hc1 : isLast1 i)
    (x0 x1 : Vec F S1024x512 .bf16) (xs : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__rowmax_kernel i arg2 harg2 arg3 harg3 arg4 harg4 arg5 harg5) K := by
  simp only [cc1__rowmax_kernel_eq_skeleton]; unfold cc1__rowmax_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [View.read_writes_eq_canon _ _ _ (fun y => ⟨_, List.mem_cons_self, View.mem_set_unit_zero origin2 inb_S1024x1_S1024x1_0_0 y⟩),
      View.canon_unit_zero origin2]
    sl_unfold_run_names
    simp only [View.readAt_eq_ld, harg2.read_unread, harg3.read_unread, harg5.read_unread, View.ld_unit_zero (S := S1024x512) origin2,
      View.ld_unit_zero (S := S1024x1) origin2, View.readCov_unit_zero (S := S1024x1) _ origin2]
  iexists _; isplitr
  swap; · iexact HS
  ipureintro
  sl_unfold_run_names
  rw [View.read_writes_eq_canon _ _ _ (fun y => ⟨_, List.mem_cons_self, View.mem_set_unit_zero origin2 inb_S1024x1_S1024x1_0_0 y⟩),
    View.canon_cons_unit_zero origin2]
  simp only [View.readAt_eq_ld, harg2.read_unread, harg3.read_unread, harg5.read_unread, View.ld_unit_zero (S := S1024x512) origin2,
    View.ld_unit_zero (S := S1024x1) origin2]

/-! ## The blocks, the running maximum, the invariant -/

section Region
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two operand blocks at point `t`, at their literal type. -/
abbrev rowsA1 (c : Dev nD) (t : Fin cfg1.N) : Vec F S1024x512 .bf16 := blk1 V c 0 t
abbrev rowsB1 (c : Dev nD) (t : Fin cfg1.N) : Vec F S1024x512 .bf16 := blk1 V c 1 t

/-- An operand window's current staging buffer holds its block at every point, fetched there or not (unfetched, the
    block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- THE RUNNING MAXIMUM: the scratch column after the body at position `n`. -/
def accAt1 (c : Dev nD) : (n : ℕ) → n < cfg1.N → Vec F S1024x1 .f32
  | 0, hn => k1_pay2 (rowsA1 V c ⟨0, hn⟩) (rowsB1 V c ⟨0, hn⟩) (k1_pay1 (F := F))
  | n + 1, hn => k1_pay2 (rowsA1 V c ⟨n + 1, hn⟩) (rowsB1 V c ⟨n + 1, hn⟩)
      (if (n + 1) % 8 = 0 then k1_pay1 (F := F) else accAt1 c n (Nat.lt_of_succ_lt hn))

/-- At the first tile of a block of rows it starts from `-∞`; -/
theorem accAt1_first (c : Dev nD) (t : Fin cfg1.N) (h : t.val % 8 = 0) :
    accAt1 V c t.val t.isLt = k1_pay2 (rowsA1 V c t) (rowsB1 V c t) (k1_pay1 (F := F)) := by
  obtain ⟨n, hn⟩ := t
  cases n with
  | zero => rfl
  | succ n => exact congrArg (k1_pay2 _ _) (if_pos h)

/-- elsewhere from what the point before left. -/
theorem accAt1_next (c : Dev nD) (t : Fin cfg1.N) (h : ¬ t.val % 8 = 0) :
    accAt1 V c t.val t.isLt = k1_pay2 (rowsA1 V c t) (rowsB1 V c t) (accAt1 V c (t.val - 1) (Nat.lt_of_le_of_lt (Nat.sub_le _ _) t.isLt)) := by
  obtain ⟨n, hn⟩ := t
  cases n with
  | zero => exact absurd (Nat.zero_mod _) h
  | succ n => exact congrArg (k1_pay2 _ _) (if_neg h)

/-- The kernel's scratch column, a whole scoped buffer of its own. -/
abbrev scratch1 : Memref sig .tc .vmem S1024x1 .f32 := Memref.whole cc1_scratch0

/-- The core's other scoped buffers outside this call's staging (the other call's staging and scratch), each at some
    contents: the body never touches them. -/
abbrev others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The core's scoped buffers that are no staging buffer of this call: its scratch column, then the others. -/
theorem scopedRest1_own (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others1 c) :=
  Pipeline.scopedRest_eq_of_list spec1 c [cc1_scratch0, cc0_stg0_0, cc0_stg0_1, cc0_stg1_0, cc0_stg1_1, cc0_stg2_0, cc0_stg2_1, cc0_scratch0] (by decide) (by decide)

/-- The launch's invariant with the scratch column singled out. -/
theorem PhiA1_eq (c : Dev nD) :
    (Pipeline.ΦA spec1 c : sProp 𝕄)
      = iprop(((∃ d, owns (c : Thread nD τ) scratch1 fullShare d) ∗ others1 c) ∗ (∃ r, prngReg c r)) := by
  unfold Pipeline.ΦA; rw [scopedRest1_own]; simp only [scratch1, owns_whole]; rfl

/-- The region's invariant before position `n`: before the first point the launch's (the scratch at anything),
    afterwards the scratch at the running maximum the point before left. -/
def PhiS1 (c : Dev nD) : (n : ℕ) → n ≤ cfg1.N → sProp 𝕄
  | 0, _ => Pipeline.ΦA spec1 c
  | n + 1, hn => iprop((owns (c : Thread nD τ) scratch1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scratch1 fullShare (accAt1 V c n hn) ∗ others1 c) ∗ (∃ r, prngReg c r)) := rfl
theorem PhiS1_pos (c : Dev nD) (n : ℕ) (h : n ≤ cfg1.N) (hz : n ≠ 0) :
    PhiS1 V c n h = iprop((owns (c : Thread nD τ) scratch1 fullShare (accAt1 V c (n - 1) (by omega)) ∗ others1 c) ∗ (∃ r, prngReg c r)) := by
  cases n with
  | zero => exact absurd rfl hz
  | succ n => rfl

/-! ## The pipeline's proof data -/

/-- The arrays as the region finds them; after the body each operand's buffer at its block and the output's at the running
    maximum (consulted only on the last tile of a block of rows, where the body stores it); the invariant `PhiS1`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the operands' buffers hold their blocks; the point is a first, a middle or a last tile of its
    block of rows; the invariant hands the body the scratch at what the point before left (at anything before the very
    first point, and a first tile does not read it) and takes it back at this point's running maximum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  have hN : t.val < 64 := lt_of_lt_of_eq t.isLt (show cfg1.N = 64 from N_1)
  by_cases h7 : t.val % 8 = 7
  · have h0 : ¬ t.val % 8 = 0 := by omega
    have hz : t.val ≠ 0 := by omega
    rw [show (dat1 V c).leavesExact 2 t = owns (c : Thread nD τ) (st1_2 t) fullShare ((dat1 V c).after 2 t) from by
      unfold Dat.leavesExact; rw [live1_2 t h7], after1_2]
    rw [accAt1_next V c t h0, Phi1_castSucc V c t, PhiS1_pos V c _ _ hz]
    iintro ⟨⟨⟨HS, Hr⟩, Hg⟩, Ho, ⟨%d0, H0⟩, ⟨%d1, H1⟩, ⟨%d2, H2⟩⟩
    iapply (runLast1 c (grid1.coords t) _ _ _ _ _ _ _ _ (fun h => h0 ((isFirst1_iff t).mp h)) ((isLast1_iff t).mpr h7) (rowsA1 V c t) (rowsB1 V c t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat1 V c) 2 t (idle1_2 t h7) (noFlush1_2 t h7)]
    by_cases h0 : t.val % 8 = 0
    · rw [accAt1_first V c t h0]
      by_cases hz : t.val = 0
      · rw [Phi1_castSucc V c t, PhiS1_zero V c _ _ hz, PhiA1_eq]
        iintro ⟨⟨⟨HS, Hr⟩, Hg⟩, Ho, ⟨%d0, H0⟩, ⟨%d1, H1⟩, ⟨%d2, H2⟩⟩
        iapply (runFirst1 c (grid1.coords t) _ _ _ _ _ _ _ _ ((isFirst1_iff t).mpr h0) (fun h => h7 ((isLast1_iff t).mp h)) (rowsA1 V c t) (rowsB1 V c t) _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [Phi1_castSucc V c t, PhiS1_pos V c _ _ hz]
        iintro ⟨⟨⟨HS, Hr⟩, Hg⟩, Ho, ⟨%d0, H0⟩, ⟨%d1, H1⟩, ⟨%d2, H2⟩⟩
        iapply (runFirst1 c (grid1.coords t) _ _ _ _ _ _ _ _ ((isFirst1_iff t).mpr h0) (fun h => h7 ((isLast1_iff t).mp h)) (rowsA1 V c t) (rowsB1 V c t) _ Set.univ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · have hz : t.val ≠ 0 := fun e => h0 (by rw [e])
      rw [accAt1_next V c t h0, Phi1_castSucc V c t, PhiS1_pos V c _ _ hz]
      iintro ⟨⟨⟨HS, Hr⟩, Hg⟩, Ho, ⟨%d0, H0⟩, ⟨%d1, H1⟩, ⟨%d2, H2⟩⟩
      iapply (runMid1 c (grid1.coords t) _ _ _ _ _ _ _ _ (fun h => h0 ((isFirst1_iff t).mp h)) (fun h => h7 ((isLast1_iff t).mp h)) (rowsA1 V c t) (rowsB1 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- after the last point the running maximum's name is forgotten and the launch's invariant is back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hr⟩, Hg⟩
  isplitl [HS Hr]
  · isplitl [HS]; · iexists _; iexact HS
    iexact Hr
  iexact Hg

end Region

end Cert.Kernel.Hand

end
-- ==== Proof.KbRun.lean ====
/-
  The whole run of the program at any float instance: @main is four stretches of host operations (the two row
  normalisations and the two format changes), the first row-maximum call, a reshape, the second row-maximum call, and the
  closing stretch (the log-density, its exponential and the two sums). The buffers' contents at each of the nine boundaries
  are a fold from the launch memory: a host stretch applies its operations, a call leaves its arrays at what the pipeline
  computes from the call's proof data and every other buffer as it was. Each call is entered with every unscoped buffer at
  its boundary's contents, the generator register at some state and nothing owed, and is left the same way at the next
  boundary. `run_all`: every weakly fair execution terminates and every unscoped buffer ends at the last boundary's
  contents `B8`.
-/
import proofs.«167242_j63737314673124_1_alg».proof.Proof.KbBody0
import proofs.«167242_j63737314673124_1_alg».proof.Proof.KbBody1
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the nine boundaries -/

/-- At launch. -/
abbrev B0 : Dev nD → Valuation τ sig (Elt F) := fun c b => (s₀ m ρ).mem ((c : Dev nD), b)
/-- After the first array's row norms, -/
abbrev B1 : Dev nD → Valuation τ sig (Elt F) := fun c => StableHlo.after hostOps0 (B0 m ρ c)
/-- its normalisation, -/
abbrev B2 : Dev nD → Valuation τ sig (Elt F) := fun c => StableHlo.after hostOps0_1 (B1 m ρ c)
/-- the second array's row norms, -/
abbrev B3 : Dev nD → Valuation τ sig (Elt F) := fun c => StableHlo.after hostOps0_2 (B2 m ρ c)
/-- its normalisation and the two format changes: the first call's entry. -/
abbrev B4 : Dev nD → Valuation τ sig (Elt F) := fun c => StableHlo.after hostOps0_3 (B3 m ρ c)
abbrev E4 : (c : Dev nD) → (b : Ref sig .tc) → Buf (Elt F) ((c : Thread nD τ).loc b) := fun c b => B4 m ρ c b
/-- After the first call: its arrays at what its write-backs leave, the rest as entered. -/
def B5 (c : Dev nD) : Valuation τ sig (Elt F) :=
  Pipeline.withArrays spec0 c (B4 m ρ c) fun w => (dat0 (E4 m ρ) c).arrAt w cfg0.N
theorem B5_arr (c : Dev nD) (w : Fin cfg0.W) :
    B5 m ρ c (Proc.devRef .tc (Pipeline.arrRef spec0 w)) = (dat0 (E4 m ρ) c).arrAt w cfg0.N := by
  unfold B5; exact Pipeline.withArrays_arr spec0 launch0.win.arr_inj c _ _ w
theorem B5_of_ne (c : Dev nD) (b : Ref sig .tc) (hb : ∀ w, Pipeline.arrRef spec0 w ≠ b) :
    B5 m ρ c (Proc.devRef .tc b) = B4 m ρ c (Proc.devRef .tc b) := by
  unfold B5; exact Pipeline.withArrays_of_ne spec0 c _ _ b hb
abbrev E5 : (c : Dev nD) → (b : Ref sig .tc) → Buf (Elt F) ((c : Thread nD τ).loc b) := fun c b => B5 m ρ c b
theorem exit0_arr (c : Dev nD) (w : Fin cfg0.W) : (dat0 (E4 m ρ) c).arrAt w cfg0.N = E5 m ρ c (Pipeline.arrRef spec0 w) :=
  (B5_arr m ρ c w).symm
theorem exit0_rest (c : Dev nD) : ∀ b, b ∉ Finset.univ.image (Pipeline.arrRef spec0) → E5 m ρ c b = E4 m ρ c b :=
  fun b hb => B5_of_ne m ρ c b fun w e => hb (Finset.mem_image.mpr ⟨w, Finset.mem_univ _, e⟩)
/-- After the reshape of the first call's result: the second call's entry. -/
abbrev B6 : Dev nD → Valuation τ sig (Elt F) := fun c => StableHlo.after hostOps1 (B5 m ρ c)
abbrev E6 : (c : Dev nD) → (b : Ref sig .tc) → Buf (Elt F) ((c : Thread nD τ).loc b) := fun c b => B6 m ρ c b
/-- After the second call. -/
def B7 (c : Dev nD) : Valuation τ sig (Elt F) :=
  Pipeline.withArrays spec1 c (B6 m ρ c) fun w => (dat1 (E6 m ρ) c).arrAt w cfg1.N
theorem B7_arr (c : Dev nD) (w : Fin cfg1.W) :
    B7 m ρ c (Proc.devRef .tc (Pipeline.arrRef spec1 w)) = (dat1 (E6 m ρ) c).arrAt w cfg1.N := by
  unfold B7; exact Pipeline.withArrays_arr spec1 launch1.win.arr_inj c _ _ w
theorem B7_of_ne (c : Dev nD) (b : Ref sig .tc) (hb : ∀ w, Pipeline.arrRef spec1 w ≠ b) :
    B7 m ρ c (Proc.devRef .tc b) = B6 m ρ c (Proc.devRef .tc b) := by
  unfold B7; exact Pipeline.withArrays_of_ne spec1 c _ _ b hb
abbrev E7 : (c : Dev nD) → (b : Ref sig .tc) → Buf (Elt F) ((c : Thread nD τ).loc b) := fun c b => B7 m ρ c b
theorem exit1_arr (c : Dev nD) (w : Fin cfg1.W) : (dat1 (E6 m ρ) c).arrAt w cfg1.N = E7 m ρ c (Pipeline.arrRef spec1 w) :=
  (B7_arr m ρ c w).symm
theorem exit1_rest (c : Dev nD) : ∀ b, b ∉ Finset.univ.image (Pipeline.arrRef spec1) → E7 m ρ c b = E6 m ρ c b :=
  fun b hb => B7_of_ne m ρ c b fun w e => hb (Finset.mem_image.mpr ⟨w, Finset.mem_univ _, e⟩)
/-- After the closing stretch: the end. -/
abbrev B8 : Dev nD → Valuation τ sig (Elt F) := fun c => StableHlo.after hostOps2 (B7 m ρ c)

/-! ## The proof data family and what rides beside the buffers -/

abbrev noTables : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) noTables p) c
  | ⟨0, _⟩ => fun c => dat0 (E4 m ρ) c
  | ⟨1, _⟩ => fun c => dat1 (E6 m ρ) c
abbrev noVariants : Variants := Variants.none
abbrev noLevels : GSem nD τ sig → Finset Unit := fun _ => ∅
abbrev lvl0 : GSem nD τ sig → Unit → ℕ := fun _ _ => 0
/-- The generator register at some state, and nothing owed. -/
abbrev Beside (c : Dev nD) : sProp 𝕄 := iprop((∃ r, prngReg c r) ∗ ∃ W, owes (c : Thread nD τ) (0 : CellTallies nD τ sig Unit) W)
/-- A stretch of host operations from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two calls as segments -/

set_option backward.isDefEq.respectTransparency.types false in
/-- The first call, entered at `B4` and left at `B5`: its arrays split out of the unscoped buffers and put back at the exit
    contents; the generator register and the call's scoped rest into the region's invariant (the scratch column at
    anything) and out of it (the running maximum's name forgotten); nothing owed; no semaphore of the kernel's own. -/
def call0 : Pipeline.RegionSeg (pcfgs (F := F)) noTables (pdats m ρ) () defs₀ noVariants noLevels lvl0 0 where
  win := launch0.win.to₀
  block_pos := launch0.block_pos
  stage_whole := launch0.stage_whole
  K := PEmpty
  osem k := k.elim
  ho := Pipeline.OwnSemFacts.none _
  hbody c := (body_obligation0 (E4 m ρ) c).loose
  hwaits := Pipeline.hwaits_of_owed_zero _ _ _ _ noLevels lvl0 0 fun _ _ => rfl
  pre c := iprop(StableHlo.held (c : Thread nD τ) (Pipeline.ucRefs τ sig) (B4 m ρ c) ∗ Beside c)
  post c := iprop(StableHlo.held (c : Thread nD τ) (Pipeline.ucRefs τ sig) (B5 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E4 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (E4 m ρ) c)
    unfold Pipeline.ΦA
    iintro ⟨Hp, -, Hr⟩
    isplitl [Hr]; · iexact Hr
    iexact Hp
  hout c := by
    refine (hout0 (E4 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E4 m ρ c) (E5 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, entered at `B6` and left at `B7`, likewise. -/
def call1 : Pipeline.RegionSeg (pcfgs (F := F)) noTables (pdats m ρ) () defs₀ noVariants noLevels lvl0 1 where
  win := launch1.win.to₀
  block_pos := launch1.block_pos
  stage_whole := launch1.stage_whole
  K := PEmpty
  osem k := k.elim
  ho := Pipeline.OwnSemFacts.none _
  hbody c := (body_obligation1 (E6 m ρ) c).loose
  hwaits := Pipeline.hwaits_of_owed_zero _ _ _ _ noLevels lvl0 1 fun _ _ => rfl
  pre c := iprop(StableHlo.held (c : Thread nD τ) (Pipeline.ucRefs τ sig) (B6 m ρ c) ∗ Beside c)
  post c := iprop(StableHlo.held (c : Thread nD τ) (Pipeline.ucRefs τ sig) (B7 m ρ c) ∗ Beside c)
  X c := iprop(∃ r, prngReg c r)
  Y c := iprop(∃ r, prngReg c r)
  Z c := Pipeline.unscopedRest (Ix := Unit) (Name := ℕ) (U := UR sig nD τ) (Lvl := ℕ) spec1 c (E6 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E6 m ρ) c)
    unfold Pipeline.ΦA
    iintro ⟨Hp, -, Hr⟩
    isplitl [Hr]; · iexact Hr
    iexact Hp
  hout c := by
    refine (hout1 (E6 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E6 m ρ c) (E7 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its eight items, and the launch -/

abbrev items : List (Pipeline.Seg (pcfgs (F := F)) noTables (pdats m ρ) () defs₀ noVariants noLevels lvl0) :=
  [ .host (stretch hostOps0 hostOps0_sub fresh0 (B0 m ρ)),
    .host (stretch hostOps0_1 hostOps0_1_sub fresh0_1 (B1 m ρ)),
    .host (stretch hostOps0_2 hostOps0_2_sub fresh0_2 (B2 m ρ)),
    .host (stretch hostOps0_3 hostOps0_3_sub fresh0_3 (B3 m ρ)),
    .region (call0 m ρ),
    .host (stretch hostOps1 hostOps1_sub fresh1 (B5 m ρ)),
    .region (call1 m ρ),
    .host (stretch hostOps2 hostOps2_sub fresh2 (B7 m ρ)) ]

theorem main_items (c : Dev nD) : main (F := F) c = Pipeline.Seg.run (items m ρ) :=
  (main_chain c).trans (by rw [Pipeline.Seg.run_eq_chain]; rfl)

set_option backward.isDefEq.respectTransparency.types false in
/-- THE RUN: every weakly fair execution of @main from `m` with zero counters terminates, nothing faulting, with every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = B8 m ρ c b) :=
  Pipeline.θ_run_regions_kit (pcfgs (F := F)) noTables (pdats m ρ) () cellOf_inj emb₁ defs₀ noVariants noLevels lvl0 m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c))
    (Tₙ := fun c => iprop(StableHlo.held (c : Thread nD τ) (Pipeline.ucRefs τ sig) (B8 m ρ c) ∗ ∃ r, prngReg c r))
    (hch := ⟨fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (B8 m ρ c) ∗ Beside c)
          ⊢ iprop(iprop(StableHlo.held (c : Thread nD τ) (Pipeline.ucRefs τ sig) (B8 m ρ c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach noLevels lvl0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

/-! ## The arguments end as launched -/

/-- No host operation writes an argument and no call may change one (each call reads the two normalised arrays and
    writes its own result): the fold at an argument's buffer walks back to the launch memory. -/
theorem keeps (ops : List (HloOp τ sig (Elt F))) (W : Valuation τ sig (Elt F)) (b : Ref sig .tc)
    (h : ∀ op ∈ ops, Proc.devRef .tc b ∉ op.writes) : StableHlo.after ops W (Proc.devRef .tc b) = W (Proc.devRef .tc b) :=
  StableHlo.after_of_forall_not_mem (b := Proc.devRef .tc b) _ _ h

/-- The writes of a stretch's operations, one singleton each, miss a buffer that is none of their results. -/
macro "misses" ops:ident : tactic => `(tactic| (
  refine List.forall_iff_forall_mem.mp ?_
  simp only [$ops:ident, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem B8_arg0 (c : Dev nD) : B8 m ρ c (Proc.devRef .tc main_arg0) = m ((c : Thread nD τ).loc main_arg0) :=
  calc B8 m ρ c (Proc.devRef .tc main_arg0)
    _ = B7 m ρ c (Proc.devRef .tc main_arg0) := keeps _ _ main_arg0 (by misses hostOps2)
    _ = B6 m ρ c (Proc.devRef .tc main_arg0) := B7_of_ne m ρ c main_arg0 (by decide)
    _ = B5 m ρ c (Proc.devRef .tc main_arg0) := keeps _ _ main_arg0 (by misses hostOps1)
    _ = B4 m ρ c (Proc.devRef .tc main_arg0) := B5_of_ne m ρ c main_arg0 (by decide)
    _ = B3 m ρ c (Proc.devRef .tc main_arg0) := keeps _ _ main_arg0 (by misses hostOps0_3)
    _ = B2 m ρ c (Proc.devRef .tc main_arg0) := keeps _ _ main_arg0 (by misses hostOps0_2)
    _ = B1 m ρ c (Proc.devRef .tc main_arg0) := keeps _ _ main_arg0 (by misses hostOps0_1)
    _ = B0 m ρ c (Proc.devRef .tc main_arg0) := keeps _ _ main_arg0 (by misses hostOps0)
    _ = m ((c : Thread nD τ).loc main_arg0) := rfl

theorem B8_arg1 (c : Dev nD) : B8 m ρ c (Proc.devRef .tc main_arg1) = m ((c : Thread nD τ).loc main_arg1) :=
  calc B8 m ρ c (Proc.devRef .tc main_arg1)
    _ = B7 m ρ c (Proc.devRef .tc main_arg1) := keeps _ _ main_arg1 (by misses hostOps2)
    _ = B6 m ρ c (Proc.devRef .tc main_arg1) := B7_of_ne m ρ c main_arg1 (by decide)
    _ = B5 m ρ c (Proc.devRef .tc main_arg1) := keeps _ _ main_arg1 (by misses hostOps1)
    _ = B4 m ρ c (Proc.devRef .tc main_arg1) := B5_of_ne m ρ c main_arg1 (by decide)
    _ = B3 m ρ c (Proc.devRef .tc main_arg1) := keeps _ _ main_arg1 (by misses hostOps0_3)
    _ = B2 m ρ c (Proc.devRef .tc main_arg1) := keeps _ _ main_arg1 (by misses hostOps0_2)
    _ = B1 m ρ c (Proc.devRef .tc main_arg1) := keeps _ _ main_arg1 (by misses hostOps0_1)
    _ = B0 m ρ c (Proc.devRef .tc main_arg1) := keeps _ _ main_arg1 (by misses hostOps0)
    _ = m ((c : Thread nD τ).loc main_arg1) := rfl

/-- THE FRAME of the program, at any float instance: it runs to the end, nothing faulting, its two arguments as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (B8_arg0 m ρ c),
    (h c _ (mem_uc main_arg1 (by decide))).trans (B8_arg1 m ρ c)⟩) (run_all m ρ)

end Cert.Kernel.Hand

end
-- ==== Proof.KiBody0.lean ====
/-
  Region 0 of the program (the tiled row-maximum kernel, call 0), at any float instance and at a PARAMETER `V`, the contents
  of the buffers when the region is entered.

  The grid is 8 × 8: point `t = 8 i + j` pairs block `i` of 1024 rows of the first operand with block `j` of 1024 rows of the
  second. Per row of block `i` the body keeps, in its scratch column, the largest inner product met so far: at `j = 0` the
  column is reset to `-∞` before the tile's row maxima are folded in, at every point the tile's row maxima are folded in,
  and at `j = 7` the column is copied to the output block, which the pipeline then writes back. So the scratch after point
  `t` is `accAt0 t`: the tile fold applied to `-∞` where `t ≡ 0 (mod 8)`, to `accAt0 (t - 1)` elsewhere. The three runs
  below are the body in its three control cases; `dat0` is the pipeline's proof data with the scratch tracked by the
  invariant `PhiS0`; `body_obligation0` is what the launch asks of the body.
-/
import proofs.«167242_j63737314673124_1_alg».proof.Proof.Gen.KernelIdeal.Launch
import proofs.«167242_j63737314673124_1_alg».proof.Proof.Gen.KernelIdeal.Skeleton
import proofs.«167242_j63737314673124_1_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of every access of the body: the origin, however it is spelt. -/
theorem origin2 : (![0, 0] : Fin 2 → ℕ) = fun _ => 0 := by funext a; fin_cases a <;> rfl

/-! ## The body's two conditions, decided over the grid -/

/-- `j = 0`: the first tile of a block of rows. -/
abbrev isFirst0 (i : grid0.Coords) : Prop := (Scalar.cmpi .ne (Scalar.extui (Scalar.cmpi .eq (BitVec.ofNat 32 (i 1).val) 0#32)) 0#32) = 1#1
/-- `j = 7`: the last tile of a block of rows. -/
abbrev isLast0 (i : grid0.Coords) : Prop := k0_cond2 i = 1#1

theorem isFirst0_iff : ∀ t : Fin cfg0.N, isFirst0 (grid0.coords t) ↔ t.val % 8 = 0 :=
  (by decide +kernel : ∀ t : Fin grid0.N, isFirst0 (grid0.coords t) ↔ t.val % 8 = 0)
theorem isLast0_iff : ∀ t : Fin cfg0.N, isLast0 (grid0.coords t) ↔ t.val % 8 = 7 :=
  (by decide +kernel : ∀ t : Fin grid0.N, isLast0 (grid0.coords t) ↔ t.val % 8 = 7)

/-- The two operand windows are never idle; the output window is idle, and not written back, off the last tile, and
    live on it. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬ t.val % 8 = 7 → cfg0.idle 2 (grid0.coords t) = true := by decide +kernel
theorem noFlush0_2 : ∀ t : Fin cfg0.N, ¬ t.val % 8 = 7 → (cfg0.win 2).flush t = false := by decide +kernel
theorem live0_2 : ∀ t : Fin cfg0.N, t.val % 8 = 7 → cfg0.idle 2 (grid0.coords t) = false := by decide +kernel

/-! ## The body in its three cases -/

set_option maxHeartbeats 1000000 in
/-- First tile of a block of rows (not the last): the scratch, at anything, ends at the tile fold of `-∞`; the operands'
    buffers and the idle output's are handed back as found. -/
theorem runFirst0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : isFirst0 i) (hc1 : ¬isLast0 i)
    (x0 x1 : Vec F S1024x512 .bf16) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__rowmax_kernel i arg2 harg2 arg3 harg3 arg4 harg4 arg5 harg5) K := by
  simp only [cc0__rowmax_kernel_eq_skeleton]; unfold cc0__rowmax_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons_self, View.mem_set_unit_zero origin2 inb_S1024x1_S1024x1_0_0 y⟩),
    View.canon_cons_unit_zero origin2]
  sl_unfold_run_names
  simp only [View.readAt_eq_ld, harg2.read_unread, harg3.read_unread, View.ld_unit_zero (S := S1024x512) origin2,
    View.readCov_unit_zero (S := S1024x1) _ origin2]

set_option maxHeartbeats 1000000 in
/-- A tile that is neither first nor last: the scratch, at `xs`, ends at the tile fold of `xs`. -/
theorem runMid0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : ¬isFirst0 i) (hc1 : ¬isLast0 i)
    (x0 x1 : Vec F S1024x512 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__rowmax_kernel i arg2 harg2 arg3 harg3 arg4 harg4 arg5 harg5) K := by
  simp only [cc0__rowmax_kernel_eq_skeleton]; unfold cc0__rowmax_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons_self, View.mem_set_unit_zero origin2 inb_S1024x1_S1024x1_0_0 y⟩),
    View.canon_cons_unit_zero origin2]
  sl_unfold_run_names
  simp only [View.readAt_eq_ld, harg2.read_unread, harg3.read_unread, harg5.read_unread, View.ld_unit_zero (S := S1024x512) origin2,
    View.ld_unit_zero (S := S1024x1) origin2]

set_option maxHeartbeats 1000000 in
/-- The last tile of a block of rows: the scratch, at `xs`, ends at the tile fold of `xs`, and the output's buffer, at
    anything, ends at the same column. -/
theorem runLast0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : ¬isFirst0 i) (hc1 : isLast0 i)
    (x0 x1 : Vec F S1024x512 .bf16) (xs : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__rowmax_kernel i arg2 harg2 arg3 harg3 arg4 harg4 arg5 harg5) K := by
  simp only [cc0__rowmax_kernel_eq_skeleton]; unfold cc0__rowmax_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [View.read_writes_eq_canon _ _ _ (fun y => ⟨_, List.mem_cons_self, View.mem_set_unit_zero origin2 inb_S1024x1_S1024x1_0_0 y⟩),
      View.canon_unit_zero origin2]
    sl_unfold_run_names
    simp only [View.readAt_eq_ld, harg2.read_unread, harg3.read_unread, harg5.read_unread, View.ld_unit_zero (S := S1024x512) origin2,
      View.ld_unit_zero (S := S1024x1) origin2, View.readCov_unit_zero (S := S1024x1) _ origin2]
  iexists _; isplitr
  swap; · iexact HS
  ipureintro
  sl_unfold_run_names
  rw [View.read_writes_eq_canon _ _ _ (fun y => ⟨_, List.mem_cons_self, View.mem_set_unit_zero origin2 inb_S1024x1_S1024x1_0_0 y⟩),
    View.canon_cons_unit_zero origin2]
  simp only [View.readAt_eq_ld, harg2.read_unread, harg3.read_unread, harg5.read_unread, View.ld_unit_zero (S := S1024x512) origin2,
    View.ld_unit_zero (S := S1024x1) origin2]

/-! ## The blocks, the running maximum, the invariant -/

section Region
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two operand blocks at point `t`, at their literal type. -/
abbrev rowsA0 (c : Dev nD) (t : Fin cfg0.N) : Vec F S1024x512 .bf16 := blk0 V c 0 t
abbrev rowsB0 (c : Dev nD) (t : Fin cfg0.N) : Vec F S1024x512 .bf16 := blk0 V c 1 t

/-- An operand window's current staging buffer holds its block at every point, fetched there or not (unfetched, the
    block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- THE RUNNING MAXIMUM: the scratch column after the body at position `n`. -/
def accAt0 (c : Dev nD) : (n : ℕ) → n < cfg0.N → Vec F S1024x1 .f32
  | 0, hn => k0_pay2 (rowsA0 V c ⟨0, hn⟩) (rowsB0 V c ⟨0, hn⟩) (k0_pay1 (F := F))
  | n + 1, hn => k0_pay2 (rowsA0 V c ⟨n + 1, hn⟩) (rowsB0 V c ⟨n + 1, hn⟩)
      (if (n + 1) % 8 = 0 then k0_pay1 (F := F) else accAt0 c n (Nat.lt_of_succ_lt hn))

/-- At the first tile of a block of rows it starts from `-∞`; -/
theorem accAt0_first (c : Dev nD) (t : Fin cfg0.N) (h : t.val % 8 = 0) :
    accAt0 V c t.val t.isLt = k0_pay2 (rowsA0 V c t) (rowsB0 V c t) (k0_pay1 (F := F)) := by
  obtain ⟨n, hn⟩ := t
  cases n with
  | zero => rfl
  | succ n => exact congrArg (k0_pay2 _ _) (if_pos h)

/-- elsewhere from what the point before left. -/
theorem accAt0_next (c : Dev nD) (t : Fin cfg0.N) (h : ¬ t.val % 8 = 0) :
    accAt0 V c t.val t.isLt = k0_pay2 (rowsA0 V c t) (rowsB0 V c t) (accAt0 V c (t.val - 1) (Nat.lt_of_le_of_lt (Nat.sub_le _ _) t.isLt)) := by
  obtain ⟨n, hn⟩ := t
  cases n with
  | zero => exact absurd (Nat.zero_mod _) h
  | succ n => exact congrArg (k0_pay2 _ _) (if_neg h)

/-- The kernel's scratch column, a whole scoped buffer of its own. -/
abbrev scratch0 : Memref sig .tc .vmem S1024x1 .f32 := Memref.whole cc0_scratch0

/-- The core's other scoped buffers outside this call's staging (the other call's staging and scratch), each at some
    contents: the body never touches them. -/
abbrev others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The core's scoped buffers that are no staging buffer of this call: its scratch column, then the others. -/
theorem scopedRest0_own (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) :=
  Pipeline.scopedRest_eq_of_list spec0 c [cc0_scratch0, cc1_stg0_0, cc1_stg0_1, cc1_stg1_0, cc1_stg1_1, cc1_stg2_0, cc1_stg2_1, cc1_scratch0] (by decide) (by decide)

/-- The launch's invariant with the scratch column singled out. -/
theorem PhiA0_eq (c : Dev nD) :
    (Pipeline.ΦA spec0 c : sProp 𝕄)
      = iprop(((∃ d, owns (c : Thread nD τ) scratch0 fullShare d) ∗ others0 c) ∗ (∃ r, prngReg c r)) := by
  unfold Pipeline.ΦA; rw [scopedRest0_own]; simp only [scratch0, owns_whole]; rfl

/-- The region's invariant before position `n`: before the first point the launch's (the scratch at anything),
    afterwards the scratch at the running maximum the point before left. -/
def PhiS0 (c : Dev nD) : (n : ℕ) → n ≤ cfg0.N → sProp 𝕄
  | 0, _ => Pipeline.ΦA spec0 c
  | n + 1, hn => iprop((owns (c : Thread nD τ) scratch0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scratch0 fullShare (accAt0 V c n hn) ∗ others0 c) ∗ (∃ r, prngReg c r)) := rfl
theorem PhiS0_pos (c : Dev nD) (n : ℕ) (h : n ≤ cfg0.N) (hz : n ≠ 0) :
    PhiS0 V c n h = iprop((owns (c : Thread nD τ) scratch0 fullShare (accAt0 V c (n - 1) (by omega)) ∗ others0 c) ∗ (∃ r, prngReg c r)) := by
  cases n with
  | zero => exact absurd rfl hz
  | succ n => rfl

/-! ## The pipeline's proof data -/

/-- The arrays as the region finds them; after the body each operand's buffer at its block and the output's at the running
    maximum (consulted only on the last tile of a block of rows, where the body stores it); the invariant `PhiS0`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' buffers hold their blocks; the point is a first, a middle or a last tile of its
    block of rows; the invariant hands the body the scratch at what the point before left (at anything before the very
    first point, and a first tile does not read it) and takes it back at this point's running maximum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  have hN : t.val < 64 := lt_of_lt_of_eq t.isLt (show cfg0.N = 64 from N_0)
  by_cases h7 : t.val % 8 = 7
  · have h0 : ¬ t.val % 8 = 0 := by omega
    have hz : t.val ≠ 0 := by omega
    rw [show (dat0 V c).leavesExact 2 t = owns (c : Thread nD τ) (st0_2 t) fullShare ((dat0 V c).after 2 t) from by
      unfold Dat.leavesExact; rw [live0_2 t h7], after0_2]
    rw [accAt0_next V c t h0, Phi0_castSucc V c t, PhiS0_pos V c _ _ hz]
    iintro ⟨⟨⟨HS, Hr⟩, Hg⟩, Ho, ⟨%d0, H0⟩, ⟨%d1, H1⟩, ⟨%d2, H2⟩⟩
    iapply (runLast0 c (grid0.coords t) _ _ _ _ _ _ _ _ (fun h => h0 ((isFirst0_iff t).mp h)) ((isLast0_iff t).mpr h7) (rowsA0 V c t) (rowsB0 V c t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat0 V c) 2 t (idle0_2 t h7) (noFlush0_2 t h7)]
    by_cases h0 : t.val % 8 = 0
    · rw [accAt0_first V c t h0]
      by_cases hz : t.val = 0
      · rw [Phi0_castSucc V c t, PhiS0_zero V c _ _ hz, PhiA0_eq]
        iintro ⟨⟨⟨HS, Hr⟩, Hg⟩, Ho, ⟨%d0, H0⟩, ⟨%d1, H1⟩, ⟨%d2, H2⟩⟩
        iapply (runFirst0 c (grid0.coords t) _ _ _ _ _ _ _ _ ((isFirst0_iff t).mpr h0) (fun h => h7 ((isLast0_iff t).mp h)) (rowsA0 V c t) (rowsB0 V c t) _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [Phi0_castSucc V c t, PhiS0_pos V c _ _ hz]
        iintro ⟨⟨⟨HS, Hr⟩, Hg⟩, Ho, ⟨%d0, H0⟩, ⟨%d1, H1⟩, ⟨%d2, H2⟩⟩
        iapply (runFirst0 c (grid0.coords t) _ _ _ _ _ _ _ _ ((isFirst0_iff t).mpr h0) (fun h => h7 ((isLast0_iff t).mp h)) (rowsA0 V c t) (rowsB0 V c t) _ Set.univ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · have hz : t.val ≠ 0 := fun e => h0 (by rw [e])
      rw [accAt0_next V c t h0, Phi0_castSucc V c t, PhiS0_pos V c _ _ hz]
      iintro ⟨⟨⟨HS, Hr⟩, Hg⟩, Ho, ⟨%d0, H0⟩, ⟨%d1, H1⟩, ⟨%d2, H2⟩⟩
      iapply (runMid0 c (grid0.coords t) _ _ _ _ _ _ _ _ (fun h => h0 ((isFirst0_iff t).mp h)) (fun h => h7 ((isLast0_iff t).mp h)) (rowsA0 V c t) (rowsB0 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point; -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- after the last point the running maximum's name is forgotten and the launch's invariant is back. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hr⟩, Hg⟩
  isplitl [HS Hr]
  · isplitl [HS]; · iexists _; iexact HS
    iexact Hr
  iexact Hg

end Region

end Cert.KernelIdeal.Hand

end
-- ==== Proof.KiBody1.lean ====
/-
  Region 1 of the program (the tiled row-maximum kernel, call 1), at any float instance and at a PARAMETER `V`, the contents
  of the buffers when the region is entered.

  The grid is 8 × 8: point `t = 8 i + j` pairs block `i` of 1024 rows of the first operand with block `j` of 1024 rows of the
  second. Per row of block `i` the body keeps, in its scratch column, the largest inner product met so far: at `j = 0` the
  column is reset to `-∞` before the tile's row maxima are folded in, at every point the tile's row maxima are folded in,
  and at `j = 7` the column is copied to the output block, which the pipeline then writes back. So the scratch after point
  `t` is `accAt1 t`: the tile fold applied to `-∞` where `t ≡ 0 (mod 8)`, to `accAt1 (t - 1)` elsewhere. The three runs
  below are the body in its three control cases; `dat1` is the pipeline's proof data with the scratch tracked by the
  invariant `PhiS1`; `body_obligation1` is what the launch asks of the body.
-/
import proofs.«167242_j63737314673124_1_alg».proof.Proof.Gen.KernelIdeal.Launch
import proofs.«167242_j63737314673124_1_alg».proof.Proof.Gen.KernelIdeal.Skeleton
import proofs.«167242_j63737314673124_1_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic
import proofs.«167242_j63737314673124_1_alg».proof.Proof.KiBody0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, decided over the grid -/

/-- `j = 0`: the first tile of a block of rows. -/
abbrev isFirst1 (i : grid1.Coords) : Prop := (Scalar.cmpi .ne (Scalar.extui (Scalar.cmpi .eq (BitVec.ofNat 32 (i 1).val) 0#32)) 0#32) = 1#1
/-- `j = 7`: the last tile of a block of rows. -/
abbrev isLast1 (i : grid1.Coords) : Prop := k1_cond2 i = 1#1

theorem isFirst1_iff : ∀ t : Fin cfg1.N, isFirst1 (grid1.coords t) ↔ t.val % 8 = 0 :=
  (by decide +kernel : ∀ t : Fin grid1.N, isFirst1 (grid1.coords t) ↔ t.val % 8 = 0)
theorem isLast1_iff : ∀ t : Fin cfg1.N, isLast1 (grid1.coords t) ↔ t.val % 8 = 7 :=
  (by decide +kernel : ∀ t : Fin grid1.N, isLast1 (grid1.coords t) ↔ t.val % 8 = 7)

/-- The two operand windows are never idle; the output window is idle, and not written back, off the last tile, and
    live on it. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬ t.val % 8 = 7 → cfg1.idle 2 (grid1.coords t) = true := by decide +kernel
theorem noFlush1_2 : ∀ t : Fin cfg1.N, ¬ t.val % 8 = 7 → (cfg1.win 2).flush t = false := by decide +kernel
theorem live1_2 : ∀ t : Fin cfg1.N, t.val % 8 = 7 → cfg1.idle 2 (grid1.coords t) = false := by decide +kernel

/-! ## The body in its three cases -/

set_option maxHeartbeats 1000000 in
/-- First tile of a block of rows (not the last): the scratch, at anything, ends at the tile fold of `-∞`; the operands'
    buffers and the idle output's are handed back as found. -/
theorem runFirst1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : isFirst1 i) (hc1 : ¬isLast1 i)
    (x0 x1 : Vec F S1024x512 .bf16) (xi : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__rowmax_kernel i arg2 harg2 arg3 harg3 arg4 harg4 arg5 harg5) K := by
  simp only [cc1__rowmax_kernel_eq_skeleton]; unfold cc1__rowmax_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons_self, View.mem_set_unit_zero origin2 inb_S1024x1_S1024x1_0_0 y⟩),
    View.canon_cons_unit_zero origin2]
  sl_unfold_run_names
  simp only [View.readAt_eq_ld, harg2.read_unread, harg3.read_unread, View.ld_unit_zero (S := S1024x512) origin2,
    View.readCov_unit_zero (S := S1024x1) _ origin2]

set_option maxHeartbeats 1000000 in
/-- A tile that is neither first nor last: the scratch, at `xs`, ends at the tile fold of `xs`. -/
theorem runMid1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : ¬isFirst1 i) (hc1 : ¬isLast1 i)
    (x0 x1 : Vec F S1024x512 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__rowmax_kernel i arg2 harg2 arg3 harg3 arg4 harg4 arg5 harg5) K := by
  simp only [cc1__rowmax_kernel_eq_skeleton]; unfold cc1__rowmax_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons_self, View.mem_set_unit_zero origin2 inb_S1024x1_S1024x1_0_0 y⟩),
    View.canon_cons_unit_zero origin2]
  sl_unfold_run_names
  simp only [View.readAt_eq_ld, harg2.read_unread, harg3.read_unread, harg5.read_unread, View.ld_unit_zero (S := S1024x512) origin2,
    View.ld_unit_zero (S := S1024x1) origin2]

set_option maxHeartbeats 1000000 in
/-- The last tile of a block of rows: the scratch, at `xs`, ends at the tile fold of `xs`, and the output's buffer, at
    anything, ends at the same column. -/
theorem runLast1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole)
    (hc0 : ¬isFirst1 i) (hc1 : isLast1 i)
    (x0 x1 : Vec F S1024x512 .bf16) (xs : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__rowmax_kernel i arg2 harg2 arg3 harg3 arg4 harg4 arg5 harg5) K := by
  simp only [cc1__rowmax_kernel_eq_skeleton]; unfold cc1__rowmax_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [View.read_writes_eq_canon _ _ _ (fun y => ⟨_, List.mem_cons_self, View.mem_set_unit_zero origin2 inb_S1024x1_S1024x1_0_0 y⟩),
      View.canon_unit_zero origin2]
    sl_unfold_run_names
    simp only [View.readAt_eq_ld, harg2.read_unread, harg3.read_unread, harg5.read_unread, View.ld_unit_zero (S := S1024x512) origin2,
      View.ld_unit_zero (S := S1024x1) origin2, View.readCov_unit_zero (S := S1024x1) _ origin2]
  iexists _; isplitr
  swap; · iexact HS
  ipureintro
  sl_unfold_run_names
  rw [View.read_writes_eq_canon _ _ _ (fun y => ⟨_, List.mem_cons_self, View.mem_set_unit_zero origin2 inb_S1024x1_S1024x1_0_0 y⟩),
    View.canon_cons_unit_zero origin2]
  simp only [View.readAt_eq_ld, harg2.read_unread, harg3.read_unread, harg5.read_unread, View.ld_unit_zero (S := S1024x512) origin2,
    View.ld_unit_zero (S := S1024x1) origin2]

/-! ## The blocks, the running maximum, the invariant -/

section Region
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two operand blocks at point `t`, at their literal type. -/
abbrev rowsA1 (c : Dev nD) (t : Fin cfg1.N) : Vec F S1024x512 .bf16 := blk1 V c 0 t
abbrev rowsB1 (c : Dev nD) (t : Fin cfg1.N) : Vec F S1024x512 .bf16 := blk1 V c 1 t

/-- An operand window's current staging buffer holds its block at every point, fetched there or not (unfetched, the
    block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- THE RUNNING MAXIMUM: the scratch column after the body at position `n`. -/
def accAt1 (c : Dev nD) : (n : ℕ) → n < cfg1.N → Vec F S1024x1 .f32
  | 0, hn => k1_pay2 (rowsA1 V c ⟨0, hn⟩) (rowsB1 V c ⟨0, hn⟩) (k1_pay1 (F := F))
  | n + 1, hn => k1_pay2 (rowsA1 V c ⟨n + 1, hn⟩) (rowsB1 V c ⟨n + 1, hn⟩)
      (if (n + 1) % 8 = 0 then k1_pay1 (F := F) else accAt1 c n (Nat.lt_of_succ_lt hn))

/-- At the first tile of a block of rows it starts from `-∞`; -/
theorem accAt1_first (c : Dev nD) (t : Fin cfg1.N) (h : t.val % 8 = 0) :
    accAt1 V c t.val t.isLt = k1_pay2 (rowsA1 V c t) (rowsB1 V c t) (k1_pay1 (F := F)) := by
  obtain ⟨n, hn⟩ := t
  cases n with
  | zero => rfl
  | succ n => exact congrArg (k1_pay2 _ _) (if_pos h)

/-- elsewhere from what the point before left. -/
theorem accAt1_next (c : Dev nD) (t : Fin cfg1.N) (h : ¬ t.val % 8 = 0) :
    accAt1 V c t.val t.isLt = k1_pay2 (rowsA1 V c t) (rowsB1 V c t) (accAt1 V c (t.val - 1) (Nat.lt_of_le_of_lt (Nat.sub_le _ _) t.isLt)) := by
  obtain ⟨n, hn⟩ := t
  cases n with
  | zero => exact absurd (Nat.zero_mod _) h
  | succ n => exact congrArg (k1_pay2 _ _) (if_neg h)

/-- The kernel's scratch column, a whole scoped buffer of its own. -/
abbrev scratch1 : Memref sig .tc .vmem S1024x1 .f32 := Memref.whole cc1_scratch0

/-- The core's other scoped buffers outside this call's staging (the other call's staging and scratch), each at some
    contents: the body never touches them. -/
abbrev others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The core's scoped buffers that are no staging buffer of this call: its scratch column, then the others. -/
theorem scopedRest1_own (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others1 c) :=
  Pipeline.scopedRest_eq_of_list spec1 c [cc1_scratch0, cc0_stg0_0, cc0_stg0_1, cc0_stg1_0, cc0_stg1_1, cc0_stg2_0, cc0_stg2_1, cc0_scratch0] (by decide) (by decide)

/-- The launch's invariant with the scratch column singled out. -/
theorem PhiA1_eq (c : Dev nD) :
    (Pipeline.ΦA spec1 c : sProp 𝕄)
      = iprop(((∃ d, owns (c : Thread nD τ) scratch1 fullShare d) ∗ others1 c) ∗ (∃ r, prngReg c r)) := by
  unfold Pipeline.ΦA; rw [scopedRest1_own]; simp only [scratch1, owns_whole]; rfl

/-- The region's invariant before position `n`: before the first point the launch's (the scratch at anything),
    afterwards the scratch at the running maximum the point before left. -/
def PhiS1 (c : Dev nD) : (n : ℕ) → n ≤ cfg1.N → sProp 𝕄
  | 0, _ => Pipeline.ΦA spec1 c
  | n + 1, hn => iprop((owns (c : Thread nD τ) scratch1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scratch1 fullShare (accAt1 V c n hn) ∗ others1 c) ∗ (∃ r, prngReg c r)) := rfl
theorem PhiS1_pos (c : Dev nD) (n : ℕ) (h : n ≤ cfg1.N) (hz : n ≠ 0) :
    PhiS1 V c n h = iprop((owns (c : Thread nD τ) scratch1 fullShare (accAt1 V c (n - 1) (by omega)) ∗ others1 c) ∗ (∃ r, prngReg c r)) := by
  cases n with
  | zero => exact absurd rfl hz
  | succ n => rfl

/-! ## The pipeline's proof data -/

/-- The arrays as the region finds them; after the body each operand's buffer at its block and the output's at the running
    maximum (consulted only on the last tile of a block of rows, where the body stores it); the invariant `PhiS1`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the operands' buffers hold their blocks; the point is a first, a middle or a last tile of its
    block of rows; the invariant hands the body the scratch at what the point before left (at anything before the very
    first point, and a first tile does not read it) and takes it back at this point's running maximum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  have hN : t.val < 64 := lt_of_lt_of_eq t.isLt (show cfg1.N = 64 from N_1)
  by_cases h7 : t.val % 8 = 7
  · have h0 : ¬ t.val % 8 = 0 := by omega
    have hz : t.val ≠ 0 := by omega
    rw [show (dat1 V c).leavesExact 2 t = owns (c : Thread nD τ) (st1_2 t) fullShare ((dat1 V c).after 2 t) from by
      unfold Dat.leavesExact; rw [live1_2 t h7], after1_2]
    rw [accAt1_next V c t h0, Phi1_castSucc V c t, PhiS1_pos V c _ _ hz]
    iintro ⟨⟨⟨HS, Hr⟩, Hg⟩, Ho, ⟨%d0, H0⟩, ⟨%d1, H1⟩, ⟨%d2, H2⟩⟩
    iapply (runLast1 c (grid1.coords t) _ _ _ _ _ _ _ _ (fun h => h0 ((isFirst1_iff t).mp h)) ((isLast1_iff t).mpr h7) (rowsA1 V c t) (rowsB1 V c t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat1 V c) 2 t (idle1_2 t h7) (noFlush1_2 t h7)]
    by_cases h0 : t.val % 8 = 0
    · rw [accAt1_first V c t h0]
      by_cases hz : t.val = 0
      · rw [Phi1_castSucc V c t, PhiS1_zero V c _ _ hz, PhiA1_eq]
        iintro ⟨⟨⟨HS, Hr⟩, Hg⟩, Ho, ⟨%d0, H0⟩, ⟨%d1, H1⟩, ⟨%d2, H2⟩⟩
        iapply (runFirst1 c (grid1.coords t) _ _ _ _ _ _ _ _ ((isFirst1_iff t).mpr h0) (fun h => h7 ((isLast1_iff t).mp h)) (rowsA1 V c t) (rowsB1 V c t) _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [Phi1_castSucc V c t, PhiS1_pos V c _ _ hz]
        iintro ⟨⟨⟨HS, Hr⟩, Hg⟩, Ho, ⟨%d0, H0⟩, ⟨%d1, H1⟩, ⟨%d2, H2⟩⟩
        iapply (runFirst1 c (grid1.coords t) _ _ _ _ _ _ _ _ ((isFirst1_iff t).mpr h0) (fun h => h7 ((isLast1_iff t).mp h)) (rowsA1 V c t) (rowsB1 V c t) _ Set.univ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · have hz : t.val ≠ 0 := fun e => h0 (by rw [e])
      rw [accAt1_next V c t h0, Phi1_castSucc V c t, PhiS1_pos V c _ _ hz]
      iintro ⟨⟨⟨HS, Hr⟩, Hg⟩, Ho, ⟨%d0, H0⟩, ⟨%d1, H1⟩, ⟨%d2, H2⟩⟩
      iapply (runMid1 c (grid1.coords t) _ _ _ _ _ _ _ _ (fun h => h0 ((isFirst1_iff t).mp h)) (fun h => h7 ((isLast1_iff t).mp h)) (rowsA1 V c t) (rowsB1 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- after the last point the running maximum's name is forgotten and the launch's invariant is back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hr⟩, Hg⟩
  isplitl [HS Hr]
  · isplitl [HS]; · iexists _; iexact HS
    iexact Hr
  iexact Hg

end Region

end Cert.KernelIdeal.Hand

end
-- ==== Proof.KiRun.lean ====
/-
  The whole run of the program at any float instance: @main is four stretches of host operations (the two row
  normalisations and the two format changes), the first row-maximum call, a reshape, the second row-maximum call, and the
  closing stretch (the log-density, its exponential and the two sums). The buffers' contents at each of the nine boundaries
  are a fold from the launch memory: a host stretch applies its operations, a call leaves its arrays at what the pipeline
  computes from the call's proof data and every other buffer as it was. Each call is entered with every unscoped buffer at
  its boundary's contents, the generator register at some state and nothing owed, and is left the same way at the next
  boundary. `run_all`: every weakly fair execution terminates and every unscoped buffer ends at the last boundary's
  contents `B8`.
-/
import proofs.«167242_j63737314673124_1_alg».proof.Proof.KiBody0
import proofs.«167242_j63737314673124_1_alg».proof.Proof.KiBody1
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the nine boundaries -/

/-- At launch. -/
abbrev B0 : Dev nD → Valuation τ sig (Elt F) := fun c b => (s₀ m ρ).mem ((c : Dev nD), b)
/-- After the first array's row norms, -/
abbrev B1 : Dev nD → Valuation τ sig (Elt F) := fun c => StableHlo.after hostOps0 (B0 m ρ c)
/-- its normalisation, -/
abbrev B2 : Dev nD → Valuation τ sig (Elt F) := fun c => StableHlo.after hostOps0_1 (B1 m ρ c)
/-- the second array's row norms, -/
abbrev B3 : Dev nD → Valuation τ sig (Elt F) := fun c => StableHlo.after hostOps0_2 (B2 m ρ c)
/-- its normalisation and the two format changes: the first call's entry. -/
abbrev B4 : Dev nD → Valuation τ sig (Elt F) := fun c => StableHlo.after hostOps0_3 (B3 m ρ c)
abbrev E4 : (c : Dev nD) → (b : Ref sig .tc) → Buf (Elt F) ((c : Thread nD τ).loc b) := fun c b => B4 m ρ c b
/-- After the first call: its arrays at what its write-backs leave, the rest as entered. -/
def B5 (c : Dev nD) : Valuation τ sig (Elt F) :=
  Pipeline.withArrays spec0 c (B4 m ρ c) fun w => (dat0 (E4 m ρ) c).arrAt w cfg0.N
theorem B5_arr (c : Dev nD) (w : Fin cfg0.W) :
    B5 m ρ c (Proc.devRef .tc (Pipeline.arrRef spec0 w)) = (dat0 (E4 m ρ) c).arrAt w cfg0.N := by
  unfold B5; exact Pipeline.withArrays_arr spec0 launch0.win.arr_inj c _ _ w
theorem B5_of_ne (c : Dev nD) (b : Ref sig .tc) (hb : ∀ w, Pipeline.arrRef spec0 w ≠ b) :
    B5 m ρ c (Proc.devRef .tc b) = B4 m ρ c (Proc.devRef .tc b) := by
  unfold B5; exact Pipeline.withArrays_of_ne spec0 c _ _ b hb
abbrev E5 : (c : Dev nD) → (b : Ref sig .tc) → Buf (Elt F) ((c : Thread nD τ).loc b) := fun c b => B5 m ρ c b
theorem exit0_arr (c : Dev nD) (w : Fin cfg0.W) : (dat0 (E4 m ρ) c).arrAt w cfg0.N = E5 m ρ c (Pipeline.arrRef spec0 w) :=
  (B5_arr m ρ c w).symm
theorem exit0_rest (c : Dev nD) : ∀ b, b ∉ Finset.univ.image (Pipeline.arrRef spec0) → E5 m ρ c b = E4 m ρ c b :=
  fun b hb => B5_of_ne m ρ c b fun w e => hb (Finset.mem_image.mpr ⟨w, Finset.mem_univ _, e⟩)
/-- After the reshape of the first call's result: the second call's entry. -/
abbrev B6 : Dev nD → Valuation τ sig (Elt F) := fun c => StableHlo.after hostOps1 (B5 m ρ c)
abbrev E6 : (c : Dev nD) → (b : Ref sig .tc) → Buf (Elt F) ((c : Thread nD τ).loc b) := fun c b => B6 m ρ c b
/-- After the second call. -/
def B7 (c : Dev nD) : Valuation τ sig (Elt F) :=
  Pipeline.withArrays spec1 c (B6 m ρ c) fun w => (dat1 (E6 m ρ) c).arrAt w cfg1.N
theorem B7_arr (c : Dev nD) (w : Fin cfg1.W) :
    B7 m ρ c (Proc.devRef .tc (Pipeline.arrRef spec1 w)) = (dat1 (E6 m ρ) c).arrAt w cfg1.N := by
  unfold B7; exact Pipeline.withArrays_arr spec1 launch1.win.arr_inj c _ _ w
theorem B7_of_ne (c : Dev nD) (b : Ref sig .tc) (hb : ∀ w, Pipeline.arrRef spec1 w ≠ b) :
    B7 m ρ c (Proc.devRef .tc b) = B6 m ρ c (Proc.devRef .tc b) := by
  unfold B7; exact Pipeline.withArrays_of_ne spec1 c _ _ b hb
abbrev E7 : (c : Dev nD) → (b : Ref sig .tc) → Buf (Elt F) ((c : Thread nD τ).loc b) := fun c b => B7 m ρ c b
theorem exit1_arr (c : Dev nD) (w : Fin cfg1.W) : (dat1 (E6 m ρ) c).arrAt w cfg1.N = E7 m ρ c (Pipeline.arrRef spec1 w) :=
  (B7_arr m ρ c w).symm
theorem exit1_rest (c : Dev nD) : ∀ b, b ∉ Finset.univ.image (Pipeline.arrRef spec1) → E7 m ρ c b = E6 m ρ c b :=
  fun b hb => B7_of_ne m ρ c b fun w e => hb (Finset.mem_image.mpr ⟨w, Finset.mem_univ _, e⟩)
/-- After the closing stretch: the end. -/
abbrev B8 : Dev nD → Valuation τ sig (Elt F) := fun c => StableHlo.after hostOps2 (B7 m ρ c)

/-! ## The proof data family and what rides beside the buffers -/

abbrev noTables : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) noTables p) c
  | ⟨0, _⟩ => fun c => dat0 (E4 m ρ) c
  | ⟨1, _⟩ => fun c => dat1 (E6 m ρ) c
abbrev noVariants : Variants := Variants.none
abbrev noLevels : GSem nD τ sig → Finset Unit := fun _ => ∅
abbrev lvl0 : GSem nD τ sig → Unit → ℕ := fun _ _ => 0
/-- The generator register at some state, and nothing owed. -/
abbrev Beside (c : Dev nD) : sProp 𝕄 := iprop((∃ r, prngReg c r) ∗ ∃ W, owes (c : Thread nD τ) (0 : CellTallies nD τ sig Unit) W)
/-- A stretch of host operations from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two calls as segments -/

set_option backward.isDefEq.respectTransparency.types false in
/-- The first call, entered at `B4` and left at `B5`: its arrays split out of the unscoped buffers and put back at the exit
    contents; the generator register and the call's scoped rest into the region's invariant (the scratch column at
    anything) and out of it (the running maximum's name forgotten); nothing owed; no semaphore of the kernel's own. -/
def call0 : Pipeline.RegionSeg (pcfgs (F := F)) noTables (pdats m ρ) () defs₀ noVariants noLevels lvl0 0 where
  win := launch0.win.to₀
  block_pos := launch0.block_pos
  stage_whole := launch0.stage_whole
  K := PEmpty
  osem k := k.elim
  ho := Pipeline.OwnSemFacts.none _
  hbody c := (body_obligation0 (E4 m ρ) c).loose
  hwaits := Pipeline.hwaits_of_owed_zero _ _ _ _ noLevels lvl0 0 fun _ _ => rfl
  pre c := iprop(StableHlo.held (c : Thread nD τ) (Pipeline.ucRefs τ sig) (B4 m ρ c) ∗ Beside c)
  post c := iprop(StableHlo.held (c : Thread nD τ) (Pipeline.ucRefs τ sig) (B5 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E4 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (E4 m ρ) c)
    unfold Pipeline.ΦA
    iintro ⟨Hp, -, Hr⟩
    isplitl [Hr]; · iexact Hr
    iexact Hp
  hout c := by
    refine (hout0 (E4 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E4 m ρ c) (E5 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, entered at `B6` and left at `B7`, likewise. -/
def call1 : Pipeline.RegionSeg (pcfgs (F := F)) noTables (pdats m ρ) () defs₀ noVariants noLevels lvl0 1 where
  win := launch1.win.to₀
  block_pos := launch1.block_pos
  stage_whole := launch1.stage_whole
  K := PEmpty
  osem k := k.elim
  ho := Pipeline.OwnSemFacts.none _
  hbody c := (body_obligation1 (E6 m ρ) c).loose
  hwaits := Pipeline.hwaits_of_owed_zero _ _ _ _ noLevels lvl0 1 fun _ _ => rfl
  pre c := iprop(StableHlo.held (c : Thread nD τ) (Pipeline.ucRefs τ sig) (B6 m ρ c) ∗ Beside c)
  post c := iprop(StableHlo.held (c : Thread nD τ) (Pipeline.ucRefs τ sig) (B7 m ρ c) ∗ Beside c)
  X c := iprop(∃ r, prngReg c r)
  Y c := iprop(∃ r, prngReg c r)
  Z c := Pipeline.unscopedRest (Ix := Unit) (Name := ℕ) (U := UR sig nD τ) (Lvl := ℕ) spec1 c (E6 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E6 m ρ) c)
    unfold Pipeline.ΦA
    iintro ⟨Hp, -, Hr⟩
    isplitl [Hr]; · iexact Hr
    iexact Hp
  hout c := by
    refine (hout1 (E6 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E6 m ρ c) (E7 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its eight items, and the launch -/

abbrev items : List (Pipeline.Seg (pcfgs (F := F)) noTables (pdats m ρ) () defs₀ noVariants noLevels lvl0) :=
  [ .host (stretch hostOps0 hostOps0_sub fresh0 (B0 m ρ)),
    .host (stretch hostOps0_1 hostOps0_1_sub fresh0_1 (B1 m ρ)),
    .host (stretch hostOps0_2 hostOps0_2_sub fresh0_2 (B2 m ρ)),
    .host (stretch hostOps0_3 hostOps0_3_sub fresh0_3 (B3 m ρ)),
    .region (call0 m ρ),
    .host (stretch hostOps1 hostOps1_sub fresh1 (B5 m ρ)),
    .region (call1 m ρ),
    .host (stretch hostOps2 hostOps2_sub fresh2 (B7 m ρ)) ]

theorem main_items (c : Dev nD) : main (F := F) c = Pipeline.Seg.run (items m ρ) :=
  (main_chain c).trans (by rw [Pipeline.Seg.run_eq_chain]; rfl)

set_option backward.isDefEq.respectTransparency.types false in
/-- THE RUN: every weakly fair execution of @main from `m` with zero counters terminates, nothing faulting, with every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = B8 m ρ c b) :=
  Pipeline.θ_run_regions_kit (pcfgs (F := F)) noTables (pdats m ρ) () cellOf_inj emb₁ defs₀ noVariants noLevels lvl0 m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c))
    (Tₙ := fun c => iprop(StableHlo.held (c : Thread nD τ) (Pipeline.ucRefs τ sig) (B8 m ρ c) ∗ ∃ r, prngReg c r))
    (hch := ⟨fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (B8 m ρ c) ∗ Beside c)
          ⊢ iprop(iprop(StableHlo.held (c : Thread nD τ) (Pipeline.ucRefs τ sig) (B8 m ρ c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach noLevels lvl0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

/-! ## The arguments end as launched -/

/-- No host operation writes an argument and no call may change one (each call reads the two normalised arrays and
    writes its own result): the fold at an argument's buffer walks back to the launch memory. -/
theorem keeps (ops : List (HloOp τ sig (Elt F))) (W : Valuation τ sig (Elt F)) (b : Ref sig .tc)
    (h : ∀ op ∈ ops, Proc.devRef .tc b ∉ op.writes) : StableHlo.after ops W (Proc.devRef .tc b) = W (Proc.devRef .tc b) :=
  StableHlo.after_of_forall_not_mem (b := Proc.devRef .tc b) _ _ h

/-- The writes of a stretch's operations, one singleton each, miss a buffer that is none of their results. -/
macro "misses" ops:ident : tactic => `(tactic| (
  refine List.forall_iff_forall_mem.mp ?_
  simp only [$ops:ident, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem B8_arg0 (c : Dev nD) : B8 m ρ c (Proc.devRef .tc main_arg0) = m ((c : Thread nD τ).loc main_arg0) :=
  calc B8 m ρ c (Proc.devRef .tc main_arg0)
    _ = B7 m ρ c (Proc.devRef .tc main_arg0) := keeps _ _ main_arg0 (by misses hostOps2)
    _ = B6 m ρ c (Proc.devRef .tc main_arg0) := B7_of_ne m ρ c main_arg0 (by decide)
    _ = B5 m ρ c (Proc.devRef .tc main_arg0) := keeps _ _ main_arg0 (by misses hostOps1)
    _ = B4 m ρ c (Proc.devRef .tc main_arg0) := B5_of_ne m ρ c main_arg0 (by decide)
    _ = B3 m ρ c (Proc.devRef .tc main_arg0) := keeps _ _ main_arg0 (by misses hostOps0_3)
    _ = B2 m ρ c (Proc.devRef .tc main_arg0) := keeps _ _ main_arg0 (by misses hostOps0_2)
    _ = B1 m ρ c (Proc.devRef .tc main_arg0) := keeps _ _ main_arg0 (by misses hostOps0_1)
    _ = B0 m ρ c (Proc.devRef .tc main_arg0) := keeps _ _ main_arg0 (by misses hostOps0)
    _ = m ((c : Thread nD τ).loc main_arg0) := rfl

theorem B8_arg1 (c : Dev nD) : B8 m ρ c (Proc.devRef .tc main_arg1) = m ((c : Thread nD τ).loc main_arg1) :=
  calc B8 m ρ c (Proc.devRef .tc main_arg1)
    _ = B7 m ρ c (Proc.devRef .tc main_arg1) := keeps _ _ main_arg1 (by misses hostOps2)
    _ = B6 m ρ c (Proc.devRef .tc main_arg1) := B7_of_ne m ρ c main_arg1 (by decide)
    _ = B5 m ρ c (Proc.devRef .tc main_arg1) := keeps _ _ main_arg1 (by misses hostOps1)
    _ = B4 m ρ c (Proc.devRef .tc main_arg1) := B5_of_ne m ρ c main_arg1 (by decide)
    _ = B3 m ρ c (Proc.devRef .tc main_arg1) := keeps _ _ main_arg1 (by misses hostOps0_3)
    _ = B2 m ρ c (Proc.devRef .tc main_arg1) := keeps _ _ main_arg1 (by misses hostOps0_2)
    _ = B1 m ρ c (Proc.devRef .tc main_arg1) := keeps _ _ main_arg1 (by misses hostOps0_1)
    _ = B0 m ρ c (Proc.devRef .tc main_arg1) := keeps _ _ main_arg1 (by misses hostOps0)
    _ = m ((c : Thread nD τ).loc main_arg1) := rfl

/-- THE FRAME of the program, at any float instance: it runs to the end, nothing faulting, its two arguments as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (B8_arg0 m ρ c),
    (h c _ (mem_uc main_arg1 (by decide))).trans (B8_arg1 m ρ c)⟩) (run_all m ρ)

end Cert.KernelIdeal.Hand

end
-- ==== Proof.Spec.lean ====
/-
  The mathematics of the certificate, over the extended reals and free of any program.

  For two arrays `x y : [8192, 512]` write `⟨x_n, y_m⟩ = ∑ d, x[n,d] * y[m,d]`. The reference forms the whole
  `8192 × 8192` matrix of these inner products and takes its row maxima and its column maxima. The kernel never forms the
  matrix: for a block of 1024 rows `n` it walks the eight blocks of 1024 rows `m`, keeps per row the running maximum
  (started at `-∞`), and is then run a second time with the two arrays exchanged. The facts joining the two are:
  a maximum over `Fin 8192` is the maximum, block by block, of the maxima over the eight blocks of 1024 (`sup_blocks`),
  and the inner product is symmetric, so the row maxima of the exchanged arrays are the column maxima (`rowSup_swap`).
-/
import Idealize.ShloMosaic.PureOps.Ideal
import Idealize.ShloMosaic.PureOps.Ideal.Laws
import Idealize.ShloMosaic.Lib.ValueIdx
import Mathlib.Order.CompleteLattice.Finset
import Mathlib.Data.Finset.Lattice.Fold

noncomputable section

namespace Cert.Spec

open Idealize.ShloMosaic Idealize.ShloMosaic.ValueIdx

/-- The shape of each input: 8192 rows of 512 entries. -/
abbrev SA : Shape := ⟨2, ![8192, 512]⟩
/-- The shape of a vector of 8192 maxima. -/
abbrev SV : Shape := ⟨1, ![8192]⟩

/-- The inner product of row `n` of `x` with row `m` of `y`. -/
def dot (x y : SA.Idx → EReal) (n m : Fin 8192) : EReal := ∑ d : Fin 512, x (ix2 n d) * y (ix2 m d)

/-- The largest inner product of row `n` of `x` with a row of `y` (`-∞` is the maximum of nothing). -/
def rowSup (x y : SA.Idx → EReal) (n : Fin 8192) : EReal := (Finset.univ : Finset (Fin 8192)).sup fun m => dot x y n m

/-- The largest inner product of a row of `x` with row `m` of `y`. -/
def colSup (x y : SA.Idx → EReal) (m : Fin 8192) : EReal := (Finset.univ : Finset (Fin 8192)).sup fun n => dot x y n m

/-- The inner product is symmetric: multiplication of extended reals commutes. -/
theorem dot_comm (x y : SA.Idx → EReal) (n m : Fin 8192) : dot x y n m = dot y x m n := by
  unfold dot; exact Finset.sum_congr rfl fun d _ => mul_comm _ _

/-- So the row maxima of the exchanged arrays are the column maxima. -/
theorem rowSup_swap (x y : SA.Idx → EReal) (m : Fin 8192) : rowSup y x m = colSup x y m := by
  unfold rowSup colSup; exact Finset.sup_congr rfl fun n _ => dot_comm y x m n

/-- Row `m = 1024 * j + q` of the second array, as the kernel meets it: block `j`, row `q` of the block. -/
def rowOf (j : Fin 8) (q : Fin 1024) : Fin 8192 := ⟨1024 * j.val + q.val, by have := j.isLt; have := q.isLt; omega⟩

/-- The maximum, over block `j` of the second array, of the inner products with row `n`. -/
def blockSup (f : Fin 8192 → EReal) (j : Fin 8) : EReal := (Finset.univ : Finset (Fin 1024)).sup fun q => f (rowOf j q)

/-- The running maximum after the blocks `0 … k-1`, from `-∞`. -/
def runMax (f : Fin 8192 → EReal) : ℕ → EReal
  | 0 => ⊥
  | k + 1 => max (runMax f k) (if h : k < 8 then blockSup f ⟨k, h⟩ else ⊥)

/-- Every block's maximum is below the running maximum once that block has been passed. -/
theorem blockSup_le_runMax (f : Fin 8192 → EReal) :
    ∀ k : ℕ, ∀ j : Fin 8, j.val < k → blockSup f j ≤ runMax f k := by
  intro k
  induction k with
  | zero => intro j hj; exact absurd hj (Nat.not_lt_zero _)
  | succ k ih =>
    intro j hj
    show blockSup f j ≤ max (runMax f k) (if h : k < 8 then blockSup f ⟨k, h⟩ else ⊥)
    rcases Nat.lt_succ_iff_lt_or_eq.mp hj with hlt | heq
    · exact le_trans (ih j hlt) (le_max_left _ _)
    · have hk : k < 8 := heq ▸ j.isLt
      have hj' : (⟨k, hk⟩ : Fin 8) = j := Fin.ext heq.symm
      rw [dif_pos hk, hj']
      exact le_max_right _ _

/-- The running maximum never exceeds the maximum over every row. -/
theorem runMax_le_sup (f : Fin 8192 → EReal) :
    ∀ k : ℕ, runMax f k ≤ (Finset.univ : Finset (Fin 8192)).sup f := by
  intro k
  induction k with
  | zero => exact bot_le
  | succ k ih =>
    show max (runMax f k) (if h : k < 8 then blockSup f ⟨k, h⟩ else ⊥) ≤ _
    refine max_le ih ?_
    by_cases hk : k < 8
    · rw [dif_pos hk]
      exact Finset.sup_le fun q _ => Finset.le_sup (f := f) (Finset.mem_univ _)
    · rw [dif_neg hk]; exact bot_le

/-- Every row is row `m % 1024` of block `m / 1024`. -/
theorem rowOf_divMod (m : Fin 8192) :
    rowOf ⟨m.val / 1024, by have := m.isLt; omega⟩ ⟨m.val % 1024, Nat.mod_lt _ (by norm_num)⟩ = m := by
  apply Fin.ext
  show 1024 * (m.val / 1024) + m.val % 1024 = m.val
  exact Nat.div_add_mod _ _

/-- After all eight blocks the running maximum is the maximum over every row. -/
theorem sup_blocks (f : Fin 8192 → EReal) : runMax f 8 = (Finset.univ : Finset (Fin 8192)).sup f := by
  refine le_antisymm (runMax_le_sup f 8) (Finset.sup_le fun m _ => ?_)
  have hj : m.val / 1024 < 8 := by have := m.isLt; omega
  have hq : m.val % 1024 < 1024 := Nat.mod_lt _ (by norm_num)
  calc f m = f (rowOf ⟨m.val / 1024, hj⟩ ⟨m.val % 1024, hq⟩) := by rw [rowOf_divMod m]
    _ ≤ blockSup f ⟨m.val / 1024, hj⟩ :=
        Finset.le_sup (f := fun q => f (rowOf ⟨m.val / 1024, hj⟩ q)) (Finset.mem_univ _)
    _ ≤ runMax f 8 := blockSup_le_runMax f 8 ⟨m.val / 1024, hj⟩ hj

end Cert.Spec

end
-- ==== Proof.KiPayload.lean ====
/-
  What the kernel stores, read at one entry, over the extended reals.

  One grid step holds a block of 1024 rows of the first array, a block of 1024 rows of the second, and a column of 1024
  running maxima. On the first step of a row block the column is set to `-∞`. On every step the 1024 × 1024 tile of
  inner products of the rows of the two blocks is formed, the maximum is taken along each row of the tile, and the larger
  of that and the running maximum is stored. Read at row `r`: the first store writes `⊥`; the second writes
  `max (acc r) (sup over q of ⟨x0_r, x1_q⟩)`. The two kernel calls have the same body, so both readings hold for each.
-/
import proofs.«167242_j63737314673124_1_alg».proof.Proof.Gen.KernelIdeal.Skeleton
import proofs.«167242_j63737314673124_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-- the tile's contribution: the largest inner product of row r of the first block with a row of the second block -/
def tileSup (x0 x1 : Vec Ideal S1024x512 .bf16) (r : Fin 1024) : EReal :=
  (Finset.univ : Finset (Fin 1024)).sup fun q => ∑ d : Fin 512, x0 (ix2 r d) * x1 (ix2 q d)

/-! ## The tile product at an entry

The product contracts axis 1 of both blocks. At the tile's entry `i` and contraction coordinate `q`, the left factor sits at
`(i 0, q)` and the right factor at `(i 1, q)`: four coordinate facts, one per operand axis. -/

/-- The left factor's row is the entry's row. -/
theorem lhs_tile_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The left factor's column is the contraction coordinate. -/
theorem lhs_tile_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- The right factor's row is the entry's column. -/
theorem rhs_tile_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- The right factor's column is the contraction coordinate. -/
theorem rhs_tile_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The tile product, accumulated into zero, at entry `(r, q)`: the inner product of row `r` of the first block with
    row `q` of the second, the sum re-indexed by the one contraction coordinate. -/
theorem tile_matmul_apply (y0 y1 : FVec Ideal S1024x512 .bf16) (r q : Fin 1024) :
    matmul dot_S1024x512_S1024x512_S1024x1024_1_1_0_0_n_n none y0 y1 (constant (F := Ideal) S1024x1024 .f32 0x00000000#32) (ix2 r q)
      = ∑ d : Fin 512, y0 (ix2 r d) * y1 (ix2 q d) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r q) ((ValueIdx.contrEquiv1 dot_S1024x512_S1024x512_S1024x1024_1_1_0_0_n_n 512 rfl rfl).symm k) = ix2 r k := funext fun a => Fin.ext (by
    match a with
    | ⟨0, _⟩ => exact lhs_tile_0 _ _
    | ⟨1, _⟩ => exact (lhs_tile_1 _ _).trans hk)
  have er : dot_S1024x512_S1024x512_S1024x1024_1_1_0_0_n_n.rhsIdx (ix2 r q) ((ValueIdx.contrEquiv1 dot_S1024x512_S1024x512_S1024x1024_1_1_0_0_n_n 512 rfl rfl).symm k) = ix2 q k := funext fun a => Fin.ext (by
    match a with
    | ⟨0, _⟩ => exact rhs_tile_0 _ _
    | ⟨1, _⟩ => exact (rhs_tile_1 _ _).trans hk)
  rw [el, er]

/-! ## The maximum along a row of the tile -/

/-- The bit pattern of `-∞` (sign set, exponent all ones, fraction zero) denotes the least extended real. -/
theorem ofBits_negInf_f32 : (FloatOps.ofBits (F := Ideal) .f32 0xFF800000#32 : Ideal .f32) = (⊥ : EReal) := by
  show Ideal.ofBits .f32 0xFF800000#32 = ⊥
  simp [Ideal.ofBits, Ideal.ieee]

/-- Folding the binary maximum over a finite set, from the least element, is the supremum over the set: both satisfy the
    same recursion on inserting an element, and the binary maximum of extended reals is their join. -/
theorem fold_max_bot_eq_sup {ι : Type} (s : Finset ι) (g : ι → EReal) :
    s.fold max (⊥ : EReal) g = s.sup g := by
  classical
  induction s using Finset.induction_on with
  | empty => rfl
  | insert a s ha ih => rw [Finset.fold_insert ha, Finset.sup_insert, ih]

/-- The tile index over row `r` with `q` on the reduced axis is `(r, q)`. -/
theorem lift_row (r q : Fin 1024) : reduces_S1024x1024_S1024.lift (ix1 r) q = ix2 r q :=
  funext fun c => Fin.ext (by
    match c with
    | ⟨0, _⟩ => rfl
    | ⟨1, _⟩ => rfl)

/-- The maximum along each row of a tile, started at `-∞`, read at row `r`: the supremum of that row's entries. -/
theorem rowMax_apply (z : FVec Ideal S1024x1024 .f32) (r : Fin 1024) :
    multiReduction (F := Ideal) .maximumf [1] S1024 z 0xFF800000#32 reduces_S1024x1024_S1024 (.inl rfl) rfl (ix1 r)
      = (Finset.univ : Finset (Fin 1024)).sup fun q => (z (ix2 r q) : EReal) := by
  refine (Ideal.multiReduction_maximumf_single z 0xFF800000#32 reduces_S1024x1024_S1024 (.inl rfl) rfl (ix1 r)).trans ?_
  rw [ofBits_negInf_f32]
  refine (fold_max_bot_eq_sup (Finset.univ : Finset (Fin 1024)) (z ∘ reduces_S1024x1024_S1024.lift (ix1 r))).trans ?_
  exact Finset.sup_congr rfl fun q _ => congrArg z (lift_row r q)

/-! ## A vector as a column -/

/-- A vector of 1024 entries viewed as a 1024 × 1 column reads, at `(r, 0)`, its entry `r`: both sit at row-major
    position `r`. -/
theorem col_apply {α : Type} (v : S1024.Idx → α) (r : Fin 1024) :
    shapeCast S1024x1 v shapeCasts_S1024_S1024x1 (ix2 r (0 : Fin 1)) = v (ix1 r) :=
  shapeCast_apply v shapeCasts_S1024_S1024x1 (ix2 r (0 : Fin 1)) (ix1 r) (by
    rw [Shape.rowMajor_val_one, Shape.rowMajor_val_two]
    show r.val = r.val * 1 + 0
    omega)

/-! ## The two stores of the first call, at row `r` -/

/-- The initialising store writes `-∞` in every row. -/
theorem pay1_apply0 (r : Fin 1024) : k0_pay1 (F := Ideal) (ix2 r 0) = (⊥ : EReal) := by
  unfold k0_pay1
  simp only [shapeCast_self, broadcast_apply]
  exact ofBits_negInf_f32

/-- The accumulating store writes, in row `r`, the larger of the running maximum there and the tile's contribution. -/
theorem pay2_apply0 (x0 x1 : Vec Ideal S1024x512 .bf16) (acc : Vec Ideal S1024x1 .f32) (r : Fin 1024) :
    k0_pay2 (F := Ideal) x0 x1 acc (ix2 r 0) = max (acc (ix2 r 0) : EReal) (tileSup x0 x1 r) := by
  unfold k0_pay2 tileSup
  simp only [shapeCast_self]
  rw [maximumf_apply, col_apply, rowMax_apply]
  exact congrArg (max (acc (ix2 r 0) : EReal)) (Finset.sup_congr rfl fun q _ => tile_matmul_apply x0 x1 r q)

/-! ## The same two stores of the second call -/

/-- The initialising store writes `-∞` in every row. -/
theorem pay1_apply1 (r : Fin 1024) : k1_pay1 (F := Ideal) (ix2 r 0) = (⊥ : EReal) := by
  unfold k1_pay1
  simp only [shapeCast_self, broadcast_apply]
  exact ofBits_negInf_f32

/-- The accumulating store writes, in row `r`, the larger of the running maximum there and the tile's contribution. -/
theorem pay2_apply1 (x0 x1 : Vec Ideal S1024x512 .bf16) (acc : Vec Ideal S1024x1 .f32) (r : Fin 1024) :
    k1_pay2 (F := Ideal) x0 x1 acc (ix2 r 0) = max (acc (ix2 r 0) : EReal) (tileSup x0 x1 r) := by
  unfold k1_pay2 tileSup
  simp only [shapeCast_self]
  rw [maximumf_apply, col_apply, rowMax_apply]
  exact congrArg (max (acc (ix2 r 0) : EReal)) (Finset.sup_congr rfl fun q _ => tile_matmul_apply x0 x1 r q)

end Cert.KernelIdeal.Hand

end
-- ==== Proof.KiValue0.lean ====
/-
  What the first row-maximum call leaves in its output array, over the extended reals.

  The grid is 8 × 8 and point `t = 8 i + j` meets block `i` of 1024 rows of the first operand `X` with block `j` of 1024 rows of
  the second operand `Y`. For a row `n = 1024 i + r` of `X` write `f m = ⟨X_n, Y_m⟩`. The scratch column at row `r` after
  point `t` is the running maximum of `f` over the blocks `0 … j` of `Y`: at `j = 0` it is the maximum of `-∞` and the
  maximum of `f` over block `0`, and each later point folds in the maximum of `f` over block `j`. At `j = 7` all eight
  blocks are in, the running maximum is the maximum of `f` over every row of `Y`, and that column is written back as block
  `i` of the output. The eight points `t = 8 i + 7` cover the output, so it ends holding, at row `n`, the largest inner product
  of row `n` of `X` with a row of `Y`.
-/
import proofs.«167242_j63737314673124_1_alg».proof.Proof.KiBody0
import proofs.«167242_j63737314673124_1_alg».proof.Proof.KiPayload
import proofs.«167242_j63737314673124_1_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The running maximum, one step -/

/-- One more block folds its maximum into the running maximum. -/
theorem runMax_succ0 (f : Fin 8192 → EReal) (k : ℕ) (hk : k < 8) :
    Cert.Spec.runMax f (k + 1) = max (Cert.Spec.runMax f k) (Cert.Spec.blockSup f ⟨k, hk⟩) := by
  show max (Cert.Spec.runMax f k) (if h : k < 8 then Cert.Spec.blockSup f ⟨k, h⟩ else ⊥) = _
  rw [dif_pos hk]

/-! ## The block indices over the grid -/

/-- At point `t = 8 i + j` the first operand's block is `(i, 0)`, the second's `(j, 0)`, the output's `(i, 0)`. -/
theorem idx_facts0 : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

section Value0
variable (V : (c : Dev nD) → (b : Ref sig .tc) → Buf (Elt Ideal) ((c : Thread nD τ).loc b))

/-- The first operand array as the call finds it, as a function of a row and a column. -/
abbrev opA0 (c : Dev nD) : Cert.Spec.SA.Idx → EReal := V c (Pipeline.arrRef spec0 0)
/-- The second operand array as the call finds it, as a function of a row and a column. -/
abbrev opB0 (c : Dev nD) : Cert.Spec.SA.Idx → EReal := V c (Pipeline.arrRef spec0 1)

/-- The inner products of row `r` of block `i` of the first operand with every row of the second. -/
abbrev rowDots0 (c : Dev nD) (i : Fin 8) (r : Fin 1024) : Fin 8192 → EReal :=
  fun m => Cert.Spec.dot (opA0 V c) (opB0 V c) (Cert.Spec.rowOf i r) m

/-! ## The operand blocks, read at an entry -/

/-- Entry `(r, d)` of the first operand's block at point `t` is entry `(1024 i + r, d)` of the array. -/
theorem rowsA0_apply (c : Dev nD) (t : Fin cfg0.N) (i : Fin 8) (hi : i.val = t.val / 8) (r : Fin 1024) (d : Fin 512) :
    rowsA0 V c t (ix2 r d) = opA0 V c (ix2 (Cert.Spec.rowOf i r) d) := by
  obtain ⟨e0, e1, -, -, -, -⟩ := idx_facts0 t
  show V c (Pipeline.arrRef spec0 0) (((cfg0.win 0).blk t).view.emb (ix2 r d)) = V c (Pipeline.arrRef spec0 0) (ix2 (Cert.Spec.rowOf i r) d)
  refine congrArg (V c (Pipeline.arrRef spec0 0)) (funext fun a => Fin.ext ?_)
  match a with
  | ⟨0, _⟩ =>
    show win0_0.index t (0 : Fin 2) * 1024 + 1 * r.val = 1024 * i.val + r.val
    rw [e0, hi]; omega
  | ⟨1, _⟩ =>
    show win0_0.index t (1 : Fin 2) * 512 + 1 * d.val = d.val
    rw [e1]; omega

/-- Entry `(q, d)` of the second operand's block at point `t` is entry `(1024 j + q, d)` of the array. -/
theorem rowsB0_apply (c : Dev nD) (t : Fin cfg0.N) (j : Fin 8) (hj : j.val = t.val % 8) (q : Fin 1024) (d : Fin 512) :
    rowsB0 V c t (ix2 q d) = opB0 V c (ix2 (Cert.Spec.rowOf j q) d) := by
  obtain ⟨-, -, e2, e3, -, -⟩ := idx_facts0 t
  show V c (Pipeline.arrRef spec0 1) (((cfg0.win 1).blk t).view.emb (ix2 q d)) = V c (Pipeline.arrRef spec0 1) (ix2 (Cert.Spec.rowOf j q) d)
  refine congrArg (V c (Pipeline.arrRef spec0 1)) (funext fun a => Fin.ext ?_)
  match a with
  | ⟨0, _⟩ =>
    show win0_1.index t (0 : Fin 2) * 1024 + 1 * q.val = 1024 * j.val + q.val
    rw [e2, hj]; omega
  | ⟨1, _⟩ =>
    show win0_1.index t (1 : Fin 2) * 512 + 1 * d.val = d.val
    rw [e3]; omega

/-- So the tile's contribution at row `r` is the maximum, over block `j` of the second operand, of the inner products
    with row `1024 i + r` of the first. -/
theorem tileSup_rows0 (c : Dev nD) (t : Fin cfg0.N) (i j : Fin 8) (hi : i.val = t.val / 8) (hj : j.val = t.val % 8) (r : Fin 1024) :
    tileSup (rowsA0 V c t) (rowsB0 V c t) r = Cert.Spec.blockSup (rowDots0 V c i r) j := by
  unfold tileSup Cert.Spec.blockSup
  refine Finset.sup_congr rfl fun q _ => ?_
  show (∑ d : Fin 512, _) = Cert.Spec.dot (opA0 V c) (opB0 V c) (Cert.Spec.rowOf i r) (Cert.Spec.rowOf j q)
  unfold Cert.Spec.dot
  refine Finset.sum_congr rfl fun d _ => ?_
  rw [rowsA0_apply V c t i hi r d, rowsB0_apply V c t j hj q d]

/-! ## The scratch column is the running maximum -/

/-- After point `n = 8 i + j` the scratch column holds, at row `r`, the running maximum over the blocks `0 … j`. -/
theorem accAt0_apply (c : Dev nD) (n : ℕ) : ∀ (hn : n < cfg0.N) (i : Fin 8) (hi : i.val = n / 8) (r : Fin 1024),
    accAt0 V c n hn (ix2 r 0) = Cert.Spec.runMax (rowDots0 V c i r) (n % 8 + 1) := by
  have hN : cfg0.N = 64 := N_0
  induction n with
  | zero =>
    intro hn i hi r
    have e : accAt0 V c 0 hn = k0_pay2 (rowsA0 V c ⟨0, hn⟩) (rowsB0 V c ⟨0, hn⟩) (k0_pay1 (F := Ideal)) :=
      accAt0_first V c ⟨0, hn⟩ rfl
    rw [e, pay2_apply0, pay1_apply0, tileSup_rows0 V c ⟨0, hn⟩ i ⟨0, by omega⟩ hi rfl r]
    exact (runMax_succ0 _ 0 (by omega)).symm
  | succ n ih =>
    intro hn i hi r
    have hj : (n + 1) % 8 < 8 := Nat.mod_lt _ (by omega)
    by_cases h0 : (n + 1) % 8 = 0
    · have e : accAt0 V c (n + 1) hn = k0_pay2 (rowsA0 V c ⟨n + 1, hn⟩) (rowsB0 V c ⟨n + 1, hn⟩) (k0_pay1 (F := Ideal)) :=
        accAt0_first V c ⟨n + 1, hn⟩ h0
      rw [e, pay2_apply0, pay1_apply0, tileSup_rows0 V c ⟨n + 1, hn⟩ i ⟨0, by omega⟩ hi h0.symm r, h0]
      exact (runMax_succ0 _ 0 (by omega)).symm
    · have e : accAt0 V c (n + 1) hn = k0_pay2 (rowsA0 V c ⟨n + 1, hn⟩) (rowsB0 V c ⟨n + 1, hn⟩) (accAt0 V c n (Nat.lt_of_succ_lt hn)) :=
        accAt0_next V c ⟨n + 1, hn⟩ h0
      rw [e, pay2_apply0, ih (Nat.lt_of_succ_lt hn) i (by omega) r, tileSup_rows0 V c ⟨n + 1, hn⟩ i ⟨(n + 1) % 8, hj⟩ hi rfl r,
        show n % 8 + 1 = (n + 1) % 8 from by omega]
      exact (runMax_succ0 _ _ hj).symm

/-! ## What is written back, and where -/

/-- The output as the call leaves it: at row `n`, the largest inner product of row `n` of the first operand with a row of
    the second. -/
abbrev outArr0 (c : Dev nD) : Buf (Elt Ideal) ((cfg0.win 2).arr.view.loc (c.tc : Thread nD τ)) :=
  fun i => Cert.Spec.rowSup (V c (Pipeline.arrRef spec0 0)) (V c (Pipeline.arrRef spec0 1)) (i 0)

/-- The point `8 i + 7` writes back block `i` of that array: all eight blocks are in the running maximum. -/
theorem flushed0_eq (c : Dev nD) (t : Fin cfg0.N) (hf : (cfg0.win 2).flush t = true) :
    (dat0 V c).flushed 2 t = ((cfg0.win 2).blk t).view.read (Elt Ideal) (outArr0 V c) := by
  have hN : cfg0.N = 64 := N_0
  have h7 : t.val % 8 = 7 := (flush0_2 t).mp hf
  have hi : t.val / 8 < 8 := by have := t.isLt; omega
  obtain ⟨-, -, -, -, e4, e5⟩ := idx_facts0 t
  show (cfg0.win 2).cut (grid0.coords t) ((dat0 V c).after 2 t) = _
  rw [after0_2]
  refine funext fun (y : S1024x1.Idx) => ?_
  obtain ⟨r, z, rfl⟩ : ∃ (r : Fin 1024) (z : Fin 1), y = ix2 r z := ⟨y 0, y 1, eq_ix2 y⟩
  obtain rfl : z = 0 := Subsingleton.elim _ _
  rw [View.read_apply]
  show accAt0 V c t.val t.isLt (ix2 r 0)
    = Cert.Spec.rowSup (opA0 V c) (opB0 V c) ((((cfg0.win 2).blk t).view.emb (ix2 r (0 : Fin 1))) 0)
  have hrow : (((cfg0.win 2).blk t).view.emb (ix2 r (0 : Fin 1))) 0 = Cert.Spec.rowOf ⟨t.val / 8, hi⟩ r :=
    Fin.ext (by
      show win0_2.index t (0 : Fin 2) * 1024 + 1 * r.val = 1024 * (t.val / 8) + r.val
      rw [e4]; omega)
  rw [hrow, accAt0_apply V c t.val t.isLt ⟨t.val / 8, hi⟩ rfl r, h7]
  exact Cert.Spec.sup_blocks _

/-- Every row of the output lies in the block some writing point covers: row `n` in that of `8 (n / 1024) + 7`. -/
theorem cover0 (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 64 := N_0
  have h0 : (i 0).val < 8192 := (i 0).isLt
  have h1 : (i 1).val < 1 := (i 1).isLt
  obtain ⟨t, ht⟩ : ∃ t : Fin cfg0.N, t.val = 8 * ((i 0).val / 1024) + 7 := ⟨⟨8 * ((i 0).val / 1024) + 7, by omega⟩, rfl⟩
  obtain ⟨-, -, -, -, e4, e5⟩ := idx_facts0 t
  refine ⟨t, (flush0_2 t).mpr (by omega), ?_⟩
  show i ∈ ((View.whole (Pipeline.arrRef spec0 2)).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1 ≤ (i 1).val ∧ (i 1).val < win0_2.index t (1 : Fin 2) * 1 + 1
    rw [e5]; omega

/-- THE OUTPUT after the call: row `n` holds the largest inner product of row `n` of the first operand with a row of the
    second. -/
theorem arrAt0_eq (c : Dev nD) :
    (dat0 (F := Ideal) V c).arrAt 2 cfg0.N
      = fun i => Cert.Spec.rowSup (V c (Pipeline.arrRef spec0 0)) (V c (Pipeline.arrRef spec0 1)) (i 0) :=
  (dat0 V c).arrAt_eq_of_cover 2 (outArr0 V c) (flushed0_eq V c) (cover0 c)

end Value0

end Cert.KernelIdeal.Hand

end
-- ==== Proof.KiValue1.lean ====
/-
  What the first row-maximum call leaves in its output array, over the extended reals.

  The grid is 8 × 8 and point `t = 8 i + j` meets block `i` of 1024 rows of the first operand `X` with block `j` of 1024 rows of
  the second operand `Y`. For a row `n = 1024 i + r` of `X` write `f m = ⟨X_n, Y_m⟩`. The scratch column at row `r` after
  point `t` is the running maximum of `f` over the blocks `0 … j` of `Y`: at `j = 0` it is the maximum of `-∞` and the
  maximum of `f` over block `0`, and each later point folds in the maximum of `f` over block `j`. At `j = 7` all eight
  blocks are in, the running maximum is the maximum of `f` over every row of `Y`, and that column is written back as block
  `i` of the output. The eight points `t = 8 i + 7` cover the output, so it ends holding, at row `n`, the largest inner product
  of row `n` of `X` with a row of `Y`.
-/
import proofs.«167242_j63737314673124_1_alg».proof.Proof.KiBody1
import proofs.«167242_j63737314673124_1_alg».proof.Proof.KiPayload
import proofs.«167242_j63737314673124_1_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The running maximum, one step -/

/-- One more block folds its maximum into the running maximum. -/
theorem runMax_succ1 (f : Fin 8192 → EReal) (k : ℕ) (hk : k < 8) :
    Cert.Spec.runMax f (k + 1) = max (Cert.Spec.runMax f k) (Cert.Spec.blockSup f ⟨k, hk⟩) := by
  show max (Cert.Spec.runMax f k) (if h : k < 8 then Cert.Spec.blockSup f ⟨k, h⟩ else ⊥) = _
  rw [dif_pos hk]

/-! ## The block indices over the grid -/

/-- At point `t = 8 i + j` the first operand's block is `(i, 0)`, the second's `(j, 0)`, the output's `(i, 0)`. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

section Value1
variable (V : (c : Dev nD) → (b : Ref sig .tc) → Buf (Elt Ideal) ((c : Thread nD τ).loc b))

/-- The first operand array as the call finds it, as a function of a row and a column. -/
abbrev opA1 (c : Dev nD) : Cert.Spec.SA.Idx → EReal := V c (Pipeline.arrRef spec1 0)
/-- The second operand array as the call finds it, as a function of a row and a column. -/
abbrev opB1 (c : Dev nD) : Cert.Spec.SA.Idx → EReal := V c (Pipeline.arrRef spec1 1)

/-- The inner products of row `r` of block `i` of the first operand with every row of the second. -/
abbrev rowDots1 (c : Dev nD) (i : Fin 8) (r : Fin 1024) : Fin 8192 → EReal :=
  fun m => Cert.Spec.dot (opA1 V c) (opB1 V c) (Cert.Spec.rowOf i r) m

/-! ## The operand blocks, read at an entry -/

/-- Entry `(r, d)` of the first operand's block at point `t` is entry `(1024 i + r, d)` of the array. -/
theorem rowsA1_apply (c : Dev nD) (t : Fin cfg1.N) (i : Fin 8) (hi : i.val = t.val / 8) (r : Fin 1024) (d : Fin 512) :
    rowsA1 V c t (ix2 r d) = opA1 V c (ix2 (Cert.Spec.rowOf i r) d) := by
  obtain ⟨e0, e1, -, -, -, -⟩ := idx_facts1 t
  show V c (Pipeline.arrRef spec1 0) (((cfg1.win 0).blk t).view.emb (ix2 r d)) = V c (Pipeline.arrRef spec1 0) (ix2 (Cert.Spec.rowOf i r) d)
  refine congrArg (V c (Pipeline.arrRef spec1 0)) (funext fun a => Fin.ext ?_)
  match a with
  | ⟨0, _⟩ =>
    show win1_0.index t (0 : Fin 2) * 1024 + 1 * r.val = 1024 * i.val + r.val
    rw [e0, hi]; omega
  | ⟨1, _⟩ =>
    show win1_0.index t (1 : Fin 2) * 512 + 1 * d.val = d.val
    rw [e1]; omega

/-- Entry `(q, d)` of the second operand's block at point `t` is entry `(1024 j + q, d)` of the array. -/
theorem rowsB1_apply (c : Dev nD) (t : Fin cfg1.N) (j : Fin 8) (hj : j.val = t.val % 8) (q : Fin 1024) (d : Fin 512) :
    rowsB1 V c t (ix2 q d) = opB1 V c (ix2 (Cert.Spec.rowOf j q) d) := by
  obtain ⟨-, -, e2, e3, -, -⟩ := idx_facts1 t
  show V c (Pipeline.arrRef spec1 1) (((cfg1.win 1).blk t).view.emb (ix2 q d)) = V c (Pipeline.arrRef spec1 1) (ix2 (Cert.Spec.rowOf j q) d)
  refine congrArg (V c (Pipeline.arrRef spec1 1)) (funext fun a => Fin.ext ?_)
  match a with
  | ⟨0, _⟩ =>
    show win1_1.index t (0 : Fin 2) * 1024 + 1 * q.val = 1024 * j.val + q.val
    rw [e2, hj]; omega
  | ⟨1, _⟩ =>
    show win1_1.index t (1 : Fin 2) * 512 + 1 * d.val = d.val
    rw [e3]; omega

/-- So the tile's contribution at row `r` is the maximum, over block `j` of the second operand, of the inner products
    with row `1024 i + r` of the first. -/
theorem tileSup_rows1 (c : Dev nD) (t : Fin cfg1.N) (i j : Fin 8) (hi : i.val = t.val / 8) (hj : j.val = t.val % 8) (r : Fin 1024) :
    tileSup (rowsA1 V c t) (rowsB1 V c t) r = Cert.Spec.blockSup (rowDots1 V c i r) j := by
  unfold tileSup Cert.Spec.blockSup
  refine Finset.sup_congr rfl fun q _ => ?_
  show (∑ d : Fin 512, _) = Cert.Spec.dot (opA1 V c) (opB1 V c) (Cert.Spec.rowOf i r) (Cert.Spec.rowOf j q)
  unfold Cert.Spec.dot
  refine Finset.sum_congr rfl fun d _ => ?_
  rw [rowsA1_apply V c t i hi r d, rowsB1_apply V c t j hj q d]

/-! ## The scratch column is the running maximum -/

/-- After point `n = 8 i + j` the scratch column holds, at row `r`, the running maximum over the blocks `0 … j`. -/
theorem accAt1_apply (c : Dev nD) (n : ℕ) : ∀ (hn : n < cfg1.N) (i : Fin 8) (hi : i.val = n / 8) (r : Fin 1024),
    accAt1 V c n hn (ix2 r 0) = Cert.Spec.runMax (rowDots1 V c i r) (n % 8 + 1) := by
  have hN : cfg1.N = 64 := N_1
  induction n with
  | zero =>
    intro hn i hi r
    have e : accAt1 V c 0 hn = k1_pay2 (rowsA1 V c ⟨0, hn⟩) (rowsB1 V c ⟨0, hn⟩) (k1_pay1 (F := Ideal)) :=
      accAt1_first V c ⟨0, hn⟩ rfl
    rw [e, pay2_apply1, pay1_apply1, tileSup_rows1 V c ⟨0, hn⟩ i ⟨0, by omega⟩ hi rfl r]
    exact (runMax_succ1 _ 0 (by omega)).symm
  | succ n ih =>
    intro hn i hi r
    have hj : (n + 1) % 8 < 8 := Nat.mod_lt _ (by omega)
    by_cases h0 : (n + 1) % 8 = 0
    · have e : accAt1 V c (n + 1) hn = k1_pay2 (rowsA1 V c ⟨n + 1, hn⟩) (rowsB1 V c ⟨n + 1, hn⟩) (k1_pay1 (F := Ideal)) :=
        accAt1_first V c ⟨n + 1, hn⟩ h0
      rw [e, pay2_apply1, pay1_apply1, tileSup_rows1 V c ⟨n + 1, hn⟩ i ⟨0, by omega⟩ hi h0.symm r, h0]
      exact (runMax_succ1 _ 0 (by omega)).symm
    · have e : accAt1 V c (n + 1) hn = k1_pay2 (rowsA1 V c ⟨n + 1, hn⟩) (rowsB1 V c ⟨n + 1, hn⟩) (accAt1 V c n (Nat.lt_of_succ_lt hn)) :=
        accAt1_next V c ⟨n + 1, hn⟩ h0
      rw [e, pay2_apply1, ih (Nat.lt_of_succ_lt hn) i (by omega) r, tileSup_rows1 V c ⟨n + 1, hn⟩ i ⟨(n + 1) % 8, hj⟩ hi rfl r,
        show n % 8 + 1 = (n + 1) % 8 from by omega]
      exact (runMax_succ1 _ _ hj).symm

/-! ## What is written back, and where -/

/-- The output as the call leaves it: at row `n`, the largest inner product of row `n` of the first operand with a row of
    the second. -/
abbrev outArr1 (c : Dev nD) : Buf (Elt Ideal) ((cfg1.win 2).arr.view.loc (c.tc : Thread nD τ)) :=
  fun i => Cert.Spec.rowSup (V c (Pipeline.arrRef spec1 0)) (V c (Pipeline.arrRef spec1 1)) (i 0)

/-- The point `8 i + 7` writes back block `i` of that array: all eight blocks are in the running maximum. -/
theorem flushed1_eq (c : Dev nD) (t : Fin cfg1.N) (hf : (cfg1.win 2).flush t = true) :
    (dat1 V c).flushed 2 t = ((cfg1.win 2).blk t).view.read (Elt Ideal) (outArr1 V c) := by
  have hN : cfg1.N = 64 := N_1
  have h7 : t.val % 8 = 7 := (flush0_2 t).mp hf
  have hi : t.val / 8 < 8 := by have := t.isLt; omega
  obtain ⟨-, -, -, -, e4, e5⟩ := idx_facts1 t
  show (cfg1.win 2).cut (grid1.coords t) ((dat1 V c).after 2 t) = _
  rw [after1_2]
  refine funext fun (y : S1024x1.Idx) => ?_
  obtain ⟨r, z, rfl⟩ : ∃ (r : Fin 1024) (z : Fin 1), y = ix2 r z := ⟨y 0, y 1, eq_ix2 y⟩
  obtain rfl : z = 0 := Subsingleton.elim _ _
  rw [View.read_apply]
  show accAt1 V c t.val t.isLt (ix2 r 0)
    = Cert.Spec.rowSup (opA1 V c) (opB1 V c) ((((cfg1.win 2).blk t).view.emb (ix2 r (0 : Fin 1))) 0)
  have hrow : (((cfg1.win 2).blk t).view.emb (ix2 r (0 : Fin 1))) 0 = Cert.Spec.rowOf ⟨t.val / 8, hi⟩ r :=
    Fin.ext (by
      show win1_2.index t (0 : Fin 2) * 1024 + 1 * r.val = 1024 * (t.val / 8) + r.val
      rw [e4]; omega)
  rw [hrow, accAt1_apply V c t.val t.isLt ⟨t.val / 8, hi⟩ rfl r, h7]
  exact Cert.Spec.sup_blocks _

/-- Every row of the output lies in the block some writing point covers: row `n` in that of `8 (n / 1024) + 7`. -/
theorem cover1 (c : Dev nD) (i : ((cfg1.win 2).arr.view.loc (c.tc : Thread nD τ)).2.ty.Idx) :
    ∃ t : Fin cfg1.N, (cfg1.win 2).flush t = true ∧ i ∈ ((cfg1.win 2).blk t).view.set := by
  have hN : cfg1.N = 64 := N_1
  have h0 : (i 0).val < 8192 := (i 0).isLt
  have h1 : (i 1).val < 1 := (i 1).isLt
  obtain ⟨t, ht⟩ : ∃ t : Fin cfg1.N, t.val = 8 * ((i 0).val / 1024) + 7 := ⟨⟨8 * ((i 0).val / 1024) + 7, by omega⟩, rfl⟩
  obtain ⟨-, -, -, -, e4, e5⟩ := idx_facts1 t
  refine ⟨t, (flush0_2 t).mpr (by omega), ?_⟩
  show i ∈ ((View.whole (Pipeline.arrRef spec1 2)).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e4]; omega
  | ⟨1, _⟩ =>
    show win1_2.index t (1 : Fin 2) * 1 ≤ (i 1).val ∧ (i 1).val < win1_2.index t (1 : Fin 2) * 1 + 1
    rw [e5]; omega

/-- THE OUTPUT after the call: row `n` holds the largest inner product of row `n` of the first operand with a row of the
    second. -/
theorem arrAt1_eq (c : Dev nD) :
    (dat1 (F := Ideal) V c).arrAt 2 cfg1.N
      = fun i => Cert.Spec.rowSup (V c (Pipeline.arrRef spec1 0)) (V c (Pipeline.arrRef spec1 1)) (i 0) :=
  (dat1 V c).arrAt_eq_of_cover 2 (outArr1 V c) (flushed1_eq V c) (cover1 c)

end Value1

end Cert.KernelIdeal.Hand

end
-- ==== Proof.RefMax.lean ====
/-
  The reference's two maxima, read at an index, over the extended reals.

  The reference forms the matrix `C[n, m] = ⟨x_n, y_m⟩` by one contraction over the 512 columns and then takes, from
  `-∞`, the maximum of each row of `C` (over `m`) and the maximum of each column of `C` (over `n`). The maximum of
  extended reals is commutative and associative, so the order in which a row or a column is folded is immaterial and the
  fold is the one over the 8192 coordinates of the reduced axis; its starting value `-∞` is the least extended real, so
  the fold is the supremum over those coordinates; and each entry of `C` is the sum over the contracted axis of the
  products of the two rows' entries, the inner product. Hence row `n`'s maximum is `rowSup x y n` and column `m`'s is
  `colSup x y m`.
-/
import proofs.«167242_j63737314673124_1_alg».proof.Proof.Gen.ReferenceIdeal.Read
import proofs.«167242_j63737314673124_1_alg».proof.Proof.Spec
import Idealize.ShloMosaic.PureOps.Ideal.Laws
import Idealize.ShloMosaic.Lib.ValueIdx

noncomputable section

namespace Cert.ReferenceIdeal.RefMax

open Cert.ReferenceIdeal Cert.ReferenceIdeal.Gen Idealize.ShloMosaic Idealize.ShloMosaic.ValueIdx

/-- The pattern `0xFF800000` (sign set, exponent all ones, fraction zero) denotes `-∞`, the least extended real. -/
theorem negInf_eq_bot : Ideal.ofBits .f32 0xFF800000#32 = (⊥ : EReal) := by
  simp [Ideal.ofBits, Ideal.ieee]

/-- Entry `(n, m)` of the contraction is the inner product of row `n` of `x` with row `m` of `y`: the sum over the one
    contracted coordinate `d` of `x[n, d] * y[m, d]`. The left operand is read at (first output coordinate, `d`), the
    right at (second output coordinate, `d`). -/
theorem dot_apply (x y : FVec Ideal S8192x512 .f32) (j : S8192x8192.Idx) :
    Host.dotGeneral (F := Ideal) dot_S8192x512_S8192x512_S8192x8192_1_1_0_0_n_n none x y j = Cert.Spec.dot x y (j 0) (j 1) := by
  simp only [Host.dotGeneral]
  rw [Ideal.dotGeneral_apply, ← Equiv.sum_comp (contrEquiv1 dot_S8192x512_S8192x512_S8192x8192_1_1_0_0_n_n 512 rfl rfl).symm]
  unfold Cert.Spec.dot
  refine Finset.sum_congr rfl fun d _ => ?_
  have hd := contrEquiv1_symm_val dot_S8192x512_S8192x512_S8192x8192_1_1_0_0_n_n 512 rfl rfl d
  have el : dot_S8192x512_S8192x512_S8192x8192_1_1_0_0_n_n.lhsIdx j ((contrEquiv1 dot_S8192x512_S8192x512_S8192x8192_1_1_0_0_n_n 512 rfl rfl).symm d) = ix2 (j 0) d :=
    funext fun a => Fin.ext (by
      match a with
      | ⟨0, _⟩ => exact Read.lhs_main_v10_0 _ _
      | ⟨1, _⟩ => exact (Read.lhs_main_v10_1 _ _).trans hd)
  have er : dot_S8192x512_S8192x512_S8192x8192_1_1_0_0_n_n.rhsIdx j ((contrEquiv1 dot_S8192x512_S8192x512_S8192x8192_1_1_0_0_n_n 512 rfl rfl).symm d) = ix2 (j 1) d :=
    funext fun a => Fin.ext (by
      match a with
      | ⟨0, _⟩ => exact Read.rhs_main_v10_0 _ _
      | ⟨1, _⟩ => exact (Read.rhs_main_v10_1 _ _).trans hd)
  rw [el, er]
  rfl

/-- The maxima along the second axis: at `n`, the fold of `max` from `-∞` over `m` of `C[n, m]`, which is the supremum over
    `m` of the inner products `⟨x_n, y_m⟩`. The index over `n` with `m` put on the reduced axis is `(n, m)`. -/
theorem rowmax_eq (x y : FVec Ideal S8192x512 .f32) :
    Host.reduce FloatOps.maximumf (Host.dotGeneral (F := Ideal) dot_S8192x512_S8192x512_S8192x8192_1_1_0_0_n_n none x y) (constant S_ .f32 0xFF800000#32) reducesTo_S8192x8192_S8192_d1 h_S_
      = fun i => Cert.Spec.rowSup x y (i 0) := by
  funext i
  have h : S8192x8192.Reduces [1] S8192 := by decide
  rw [Host.reduce_eq_fold_single (FloatOps.maximumf (F := Ideal) (φ := .f32)) _ _ reducesTo_S8192x8192_S8192_d1 h h_S_ i]
  have entry : (Host.dotGeneral (F := Ideal) dot_S8192x512_S8192x512_S8192x8192_1_1_0_0_n_n none x y ∘ h.lift i) = fun m => Cert.Spec.dot x y (i 0) m :=
    funext fun m => dot_apply x y (h.lift i m)
  rw [entry]
  show Finset.fold max (Ideal.ofBits .f32 0xFF800000#32) (fun m => Cert.Spec.dot x y (i 0) m) Finset.univ
    = Cert.Spec.rowSup x y (i 0)
  rw [negInf_eq_bot]
  rfl

/-- The maxima along the first axis: at `m`, the fold of `max` from `-∞` over `n` of `C[n, m]`, which is the supremum over
    `n` of the inner products `⟨x_n, y_m⟩`. The index over `m` with `n` put on the reduced axis is `(n, m)`. -/
theorem colmax_eq (x y : FVec Ideal S8192x512 .f32) :
    Host.reduce FloatOps.maximumf (Host.dotGeneral (F := Ideal) dot_S8192x512_S8192x512_S8192x8192_1_1_0_0_n_n none x y) (constant S_ .f32 0xFF800000#32) reducesTo_S8192x8192_S8192_d0 h_S_
      = fun i => Cert.Spec.colSup x y (i 0) := by
  funext i
  have h : S8192x8192.Reduces [0] S8192 := by decide
  rw [Host.reduce_eq_fold_single (FloatOps.maximumf (F := Ideal) (φ := .f32)) _ _ reducesTo_S8192x8192_S8192_d0 h h_S_ i]
  have entry : (Host.dotGeneral (F := Ideal) dot_S8192x512_S8192x512_S8192x8192_1_1_0_0_n_n none x y ∘ h.lift i) = fun n => Cert.Spec.dot x y n (i 0) :=
    funext fun n => dot_apply x y (h.lift i n)
  rw [entry]
  show Finset.fold max (Ideal.ofBits .f32 0xFF800000#32) (fun n => Cert.Spec.dot x y n (i 0)) Finset.univ
    = Cert.Spec.colSup x y (i 0)
  rw [negInf_eq_bot]
  rfl

end Cert.ReferenceIdeal.RefMax

end
-- ==== Proof.KiBridge.lean ====
/-
  The kernel program's two results are the reference's two results, over the extended reals.

  Both programs first divide each row of each argument by its Euclidean norm (floored at a small constant); call the two
  normalised arrays `P₀` and `P₁`. Both end with the same closing stretch: from a vector `r` of 8192 maxima the
  log-density `d = -½ ((r - 1) / σ)² - log σ - ½ log 2π` entry by entry, and then `-∑ exp d · d`. Between the two the
  reference takes the row maxima and the column maxima of the matrix of inner products `⟨P₀[n], P₁[m]⟩`; the kernel program
  makes a first row-maximum call on `(P₀, P₁)`, recasts its `[8192, 1]` column as a vector, and makes a second
  row-maximum call on `(P₁, P₀)`, whose row maxima are the column maxima of the first matrix because the inner product is
  symmetric. A narrowing format change is the identity on extended reals, so the arrays the calls read are `P₀` and `P₁`
  themselves. Given what each call leaves in its output array, each result of the kernel program is therefore the closing
  stretch applied to the same vector of maxima as the reference's, the arguments agreeing.
-/
import proofs.«167242_j63737314673124_1_alg».proof.Proof.KiRun
import proofs.«167242_j63737314673124_1_alg».proof.Proof.RefMax
import proofs.«167242_j63737314673124_1_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The shared prologue and the shared closing stretch, each as one function -/

variable (m : (ℓ : Loc nD τ sig) → Buf (Elt Ideal) ℓ) (ρ : Dev nD → PrngReg)

/-- A [8192, 512] array with each row divided by its Euclidean norm, the norm floored at a small positive constant. -/
def prol (a : FVec Ideal S8192x512 .f32) : FVec Ideal S8192x512 .f32 :=
  Host.divf a (broadcastInDim S8192x512 ![0, 1] bcast_S8192x1_S8192x512_0_1
    (maximumf (Host.sqrt (broadcastInDim S8192x1 ![0] bcast_S8192_S8192x1_0
        (Host.reduceAdd (mulf a a) (constant (F := Ideal) S_ .f32 0x00000000#32) reducesTo_S8192x512_S8192_d1 h_S_)))
      (broadcastInDim S8192x1 ![] bcast_S_S8192x1 (constant (F := Ideal) S_ .f32 0x322BCC77#32))))

/-- The log-density of a vector of maxima, entry by entry: `-½ ((r - 1) / σ)² - log σ - ½ log 2π` with `σ` the constant `0.3`. -/
def dens (R : FVec Ideal S8192 .f32) : FVec Ideal S8192 .f32 :=
  subf (subf (mulf (broadcastInDim S8192 ![] bcast_S_S8192 (constant (F := Ideal) S_ .f32 0xBF000000#32))
        (mulf (Host.divf (subf R (broadcastInDim S8192 ![] bcast_S_S8192 (constant (F := Ideal) S_ .f32 0x3F800000#32)))
                (broadcastInDim S8192 ![] bcast_S_S8192 (constant (F := Ideal) S_ .f32 0x3E99999A#32)))
              (Host.divf (subf R (broadcastInDim S8192 ![] bcast_S_S8192 (constant (F := Ideal) S_ .f32 0x3F800000#32)))
                (broadcastInDim S8192 ![] bcast_S_S8192 (constant (F := Ideal) S_ .f32 0x3E99999A#32)))))
      (broadcastInDim S8192 ![] bcast_S_S8192 (id (Host.log (constant (F := Ideal) S_ .f32 0x3E99999A#32)))))
    (broadcastInDim S8192 ![] bcast_S_S8192
      (id (mulf (constant (F := Ideal) S_ .f32 0x3F000000#32) (Host.log (constant (F := Ideal) S_ .f32 0x40C90FDB#32)))))

/-- The closing stretch as one function of the vector of maxima: minus the sum over the entries of `exp d · d`, `d` the log-density. -/
def tail (R : FVec Ideal S8192 .f32) : FVec Ideal S_ .f32 :=
  Host.negf (Host.reduceAdd (mulf (Host.exp (dens R)) (dens R)) (constant (F := Ideal) S_ .f32 0x00000000#32) reducesTo_S8192_S_d0 h_S_)

/-! ## The kernel program's results, walked back through the boundaries -/

/-- The first result is the closing stretch applied to the recast column of the first call. -/
theorem B8_v51 (c : Dev nD) : B8 (F := Ideal) m ρ c (Proc.devRef .tc main_v51) = tail (B7 m ρ c (Proc.devRef .tc main_v13)) := by
  show StableHlo.after hostOps2 (B7 m ρ c) (Proc.devRef .tc main_v51) = _
  after_results_simp
  rfl

/-- The second result is the closing stretch applied to the second call's column, recast as a vector. -/
theorem B8_v55 (c : Dev nD) : B8 (F := Ideal) m ρ c (Proc.devRef .tc main_v55)
    = tail (shapeCast S8192 (B7 m ρ c (Proc.devRef .tc main_v14) : FVec Ideal S8192x1 .f32) shapeCasts_S8192x1_S8192) := by
  show StableHlo.after hostOps2 (B7 m ρ c) (Proc.devRef .tc main_v55) = _
  after_results_simp
  rfl

/-- The second call does not touch the recast column of the first: it is still the recast of what the first call left. -/
theorem B7_v13 (c : Dev nD) : B7 (F := Ideal) m ρ c (Proc.devRef .tc main_v13)
    = shapeCast S8192 (B5 m ρ c (Proc.devRef .tc main_v12) : FVec Ideal S8192x1 .f32) shapeCasts_S8192x1_S8192 := by
  refine (B7_of_ne m ρ c main_v13 (by decide)).trans ?_
  show StableHlo.after hostOps1 (B5 m ρ c) (Proc.devRef .tc main_v13) = _
  after_results
  rfl

/-- At the first call's entry its first input array is the first argument normalised (the format change is the identity). -/
theorem B4_v10 (c : Dev nD) : B4 (F := Ideal) m ρ c (Proc.devRef .tc main_v10) = prol (m ((c : Thread nD τ).loc main_arg0)) := by
  show StableHlo.after hostOps0_3 (StableHlo.after hostOps0_2 (StableHlo.after hostOps0_1 (StableHlo.after hostOps0 (B0 m ρ c)))) (Proc.devRef .tc main_v10) = _
  after_results_simp
  simp only [StableHlo.TRef.ofBuf, StableHlo.TRef.toBuf, cast_eq]
  rfl

/-- And its second input array is the second argument normalised. -/
theorem B4_v11 (c : Dev nD) : B4 (F := Ideal) m ρ c (Proc.devRef .tc main_v11) = prol (m ((c : Thread nD τ).loc main_arg1)) := by
  show StableHlo.after hostOps0_3 (StableHlo.after hostOps0_2 (StableHlo.after hostOps0_1 (StableHlo.after hostOps0 (B0 m ρ c)))) (Proc.devRef .tc main_v11) = _
  after_results_simp
  simp only [StableHlo.TRef.ofBuf, StableHlo.TRef.toBuf, cast_eq]
  rfl

/-- A column vector `[n, 1]` recast as a vector `[n]`: entry `j` is the column's entry in row `j`. -/
theorem shapeCast_col (f : Fin 8192 → EReal) :
    shapeCast S8192 (fun i : S8192x1.Idx => f (i 0)) shapeCasts_S8192x1_S8192 = fun j : S8192.Idx => f (j 0) := by
  funext j
  refine (shapeCast_apply (fun i : S8192x1.Idx => f (i 0)) shapeCasts_S8192x1_S8192 j (ix2 (j 0) (0 : Fin 1)) ?_).trans rfl
  rw [Shape.rowMajor_val_two, Shape.rowMajor_val_one]
  show (j 0).val * 1 + 0 = (j 0).val
  omega

/-- A call leaves its input arrays as it found them: after the first call the two normalised arrays are unchanged, -/
theorem B5_v10 (c : Dev nD) : B5 (F := Ideal) m ρ c (Proc.devRef .tc main_v10) = prol (m ((c : Thread nD τ).loc main_arg0)) := by
  refine Eq.trans ?_ (B4_v10 m ρ c)
  show B5 m ρ c (Proc.devRef .tc (Pipeline.arrRef spec0 0)) = E4 m ρ c (Pipeline.arrRef spec0 0)
  rw [B5_arr m ρ c 0]
  exact ((dat0 (E4 m ρ) c).arrAt_in 0 rfl _).trans (A_eq0 (E4 m ρ) c 0)

theorem B5_v11 (c : Dev nD) : B5 (F := Ideal) m ρ c (Proc.devRef .tc main_v11) = prol (m ((c : Thread nD τ).loc main_arg1)) := by
  refine Eq.trans ?_ (B4_v11 m ρ c)
  show B5 m ρ c (Proc.devRef .tc (Pipeline.arrRef spec0 1)) = E4 m ρ c (Pipeline.arrRef spec0 1)
  rw [B5_arr m ρ c 1]
  exact ((dat0 (E4 m ρ) c).arrAt_in 1 rfl _).trans (A_eq0 (E4 m ρ) c 1)

/-- and the recast between the calls writes neither, so the second call is entered with them too. -/
theorem E6_v10 (c : Dev nD) : E6 (F := Ideal) m ρ c main_v10 = prol (m ((c : Thread nD τ).loc main_arg0)) :=
  (keeps hostOps1 (B5 m ρ c) main_v10 (by misses hostOps1)).trans (B5_v10 m ρ c)

theorem E6_v11 (c : Dev nD) : E6 (F := Ideal) m ρ c main_v11 = prol (m ((c : Thread nD τ).loc main_arg1)) :=
  (keeps hostOps1 (B5 m ρ c) main_v11 (by misses hostOps1)).trans (B5_v11 m ρ c)

/-- The first result: the closing stretch applied to the row maxima of the inner products of the two normalised arrays. -/
theorem kernel_out0
    (harr0 : ∀ (V : (c : Dev nD) → (b : Ref sig .tc) → Buf (Elt Ideal) ((c : Thread nD τ).loc b)) (c : Dev nD),
        (dat0 (F := Ideal) V c).arrAt 2 cfg0.N = fun i => Cert.Spec.rowSup (V c (Pipeline.arrRef spec0 0)) (V c (Pipeline.arrRef spec0 1)) (i 0))
    (c : Dev nD) :
    B8 (F := Ideal) m ρ c (Proc.devRef .tc main_v51)
      = tail fun j => Cert.Spec.rowSup (prol (m ((c : Thread nD τ).loc main_arg0))) (prol (m ((c : Thread nD τ).loc main_arg1))) (j 0) := by
  have e : (B5 m ρ c (Proc.devRef .tc main_v12) : FVec Ideal S8192x1 .f32)
      = fun i : S8192x1.Idx => Cert.Spec.rowSup (prol (m ((c : Thread nD τ).loc main_arg0))) (prol (m ((c : Thread nD τ).loc main_arg1))) (i 0) := by
    have a0 : (E4 m ρ c (Pipeline.arrRef spec0 0) : FVec Ideal S8192x512 .f32) = prol (m ((c : Thread nD τ).loc main_arg0)) := B4_v10 m ρ c
    have a1 : (E4 m ρ c (Pipeline.arrRef spec0 1) : FVec Ideal S8192x512 .f32) = prol (m ((c : Thread nD τ).loc main_arg1)) := B4_v11 m ρ c
    refine ((B5_arr m ρ c 2).trans (harr0 (E4 m ρ) c)).trans ?_
    show (fun i : S8192x1.Idx => Cert.Spec.rowSup (E4 m ρ c (Pipeline.arrRef spec0 0)) (E4 m ρ c (Pipeline.arrRef spec0 1)) (i 0)) = _
    rw [a0, a1]
  rw [B8_v51, B7_v13, e, shapeCast_col fun n => Cert.Spec.rowSup (prol (m ((c : Thread nD τ).loc main_arg0))) (prol (m ((c : Thread nD τ).loc main_arg1))) n]

/-- The second result: the closing stretch applied to the column maxima. The second call exchanges the two arrays, and the
    inner product is symmetric. -/
theorem kernel_out1
    (harr1 : ∀ (V : (c : Dev nD) → (b : Ref sig .tc) → Buf (Elt Ideal) ((c : Thread nD τ).loc b)) (c : Dev nD),
        (dat1 (F := Ideal) V c).arrAt 2 cfg1.N = fun i => Cert.Spec.rowSup (V c (Pipeline.arrRef spec1 0)) (V c (Pipeline.arrRef spec1 1)) (i 0))
    (c : Dev nD) :
    B8 (F := Ideal) m ρ c (Proc.devRef .tc main_v55)
      = tail fun j => Cert.Spec.colSup (prol (m ((c : Thread nD τ).loc main_arg0))) (prol (m ((c : Thread nD τ).loc main_arg1))) (j 0) := by
  have e : (B7 m ρ c (Proc.devRef .tc main_v14) : FVec Ideal S8192x1 .f32)
      = fun i : S8192x1.Idx => Cert.Spec.colSup (prol (m ((c : Thread nD τ).loc main_arg0))) (prol (m ((c : Thread nD τ).loc main_arg1))) (i 0) := by
    have a0 : (E6 m ρ c (Pipeline.arrRef spec1 0) : FVec Ideal S8192x512 .f32) = prol (m ((c : Thread nD τ).loc main_arg1)) := E6_v11 m ρ c
    have a1 : (E6 m ρ c (Pipeline.arrRef spec1 1) : FVec Ideal S8192x512 .f32) = prol (m ((c : Thread nD τ).loc main_arg0)) := E6_v10 m ρ c
    refine ((B7_arr m ρ c 2).trans (harr1 (E6 m ρ) c)).trans ?_
    show (fun i : S8192x1.Idx => Cert.Spec.rowSup (E6 m ρ c (Pipeline.arrRef spec1 0)) (E6 m ρ c (Pipeline.arrRef spec1 1)) (i 0)) = _
    rw [a0, a1]
    funext i
    exact Cert.Spec.rowSup_swap _ _ _
  rw [B8_v55, e, shapeCast_col fun n => Cert.Spec.colSup (prol (m ((c : Thread nD τ).loc main_arg0))) (prol (m ((c : Thread nD τ).loc main_arg1))) n]

/-! ## The reference's results -/

/-- The reference's first result is the same closing stretch applied to the row maxima of the same inner products, formed
    from its own arguments. -/
theorem ref_out0
    (m' : (ℓ : Loc Cert.ReferenceIdeal.nD Cert.ReferenceIdeal.τ Cert.ReferenceIdeal.sig) → Buf (Elt Ideal) ℓ) (c : Dev nD) :
    Cert.ReferenceIdeal.Value.res_main_v48 (F := Ideal) m' c
      = tail fun j => Cert.Spec.rowSup
          (prol (m' ((c.tc : Thread Cert.ReferenceIdeal.nD Cert.ReferenceIdeal.τ).loc Cert.ReferenceIdeal.main_arg0)))
          (prol (m' ((c.tc : Thread Cert.ReferenceIdeal.nD Cert.ReferenceIdeal.τ).loc Cert.ReferenceIdeal.main_arg1))) (j 0) := by
  have e : Cert.ReferenceIdeal.Value.res_main_v48 (F := Ideal) m' c
      = tail (Host.reduce FloatOps.maximumf
          (Host.dotGeneral (F := Ideal) Cert.ReferenceIdeal.dot_S8192x512_S8192x512_S8192x8192_1_1_0_0_n_n none
            (prol (m' ((c.tc : Thread Cert.ReferenceIdeal.nD Cert.ReferenceIdeal.τ).loc Cert.ReferenceIdeal.main_arg0)))
            (prol (m' ((c.tc : Thread Cert.ReferenceIdeal.nD Cert.ReferenceIdeal.τ).loc Cert.ReferenceIdeal.main_arg1))))
          (constant Cert.ReferenceIdeal.S_ .f32 0xFF800000#32)
          Cert.ReferenceIdeal.Gen.reducesTo_S8192x8192_S8192_d1 Cert.ReferenceIdeal.Gen.h_S_) := by
    unfold Cert.ReferenceIdeal.Value.res_main_v48
    rfl
  rw [e, Cert.ReferenceIdeal.RefMax.rowmax_eq]

/-- And its second result is the closing stretch applied to the column maxima. -/
theorem ref_out1
    (m' : (ℓ : Loc Cert.ReferenceIdeal.nD Cert.ReferenceIdeal.τ Cert.ReferenceIdeal.sig) → Buf (Elt Ideal) ℓ) (c : Dev nD) :
    Cert.ReferenceIdeal.Value.res_main_v52 (F := Ideal) m' c
      = tail fun j => Cert.Spec.colSup
          (prol (m' ((c.tc : Thread Cert.ReferenceIdeal.nD Cert.ReferenceIdeal.τ).loc Cert.ReferenceIdeal.main_arg0)))
          (prol (m' ((c.tc : Thread Cert.ReferenceIdeal.nD Cert.ReferenceIdeal.τ).loc Cert.ReferenceIdeal.main_arg1))) (j 0) := by
  have e : Cert.ReferenceIdeal.Value.res_main_v52 (F := Ideal) m' c
      = tail (Host.reduce FloatOps.maximumf
          (Host.dotGeneral (F := Ideal) Cert.ReferenceIdeal.dot_S8192x512_S8192x512_S8192x8192_1_1_0_0_n_n none
            (prol (m' ((c.tc : Thread Cert.ReferenceIdeal.nD Cert.ReferenceIdeal.τ).loc Cert.ReferenceIdeal.main_arg0)))
            (prol (m' ((c.tc : Thread Cert.ReferenceIdeal.nD Cert.ReferenceIdeal.τ).loc Cert.ReferenceIdeal.main_arg1))))
          (constant Cert.ReferenceIdeal.S_ .f32 0xFF800000#32)
          Cert.ReferenceIdeal.Gen.reducesTo_S8192x8192_S8192_d0 Cert.ReferenceIdeal.Gen.h_S_) := by
    unfold Cert.ReferenceIdeal.Value.res_main_v52
    rfl
  rw [e, Cert.ReferenceIdeal.RefMax.colmax_eq]

/-! ## The two programs' results agree -/

/-- From memories that agree on the two arguments, and given that the first row-maximum call leaves in its output array
    the row maxima of the inner products of its two input arrays, the kernel program's first result is the
    reference's: both are the closing stretch applied to the row maxima of the inner products of the two normalised
    arguments. -/
theorem out0_eq
    (m' : (ℓ : Loc Cert.ReferenceIdeal.nD Cert.ReferenceIdeal.τ Cert.ReferenceIdeal.sig) → Buf (Elt Ideal) ℓ)
    (h0 : ∀ c : Dev nD, m' ((c.tc : Thread Cert.ReferenceIdeal.nD Cert.ReferenceIdeal.τ).loc Cert.ReferenceIdeal.main_arg0) = m ((c.tc : Thread nD τ).loc main_arg0))
    (h1 : ∀ c : Dev nD, m' ((c.tc : Thread Cert.ReferenceIdeal.nD Cert.ReferenceIdeal.τ).loc Cert.ReferenceIdeal.main_arg1) = m ((c.tc : Thread nD τ).loc main_arg1))
    (harr0 : ∀ (V : (c : Dev nD) → (b : Ref sig .tc) → Buf (Elt Ideal) ((c : Thread nD τ).loc b)) (c : Dev nD),
        (dat0 (F := Ideal) V c).arrAt 2 cfg0.N = fun i => Cert.Spec.rowSup (V c (Pipeline.arrRef spec0 0)) (V c (Pipeline.arrRef spec0 1)) (i 0))
    (c : Dev nD) :
    B8 (F := Ideal) m ρ c (Proc.devRef .tc main_v51) = Cert.ReferenceIdeal.Value.res_main_v48 (F := Ideal) m' c := by
  rw [kernel_out0 m ρ harr0 c, ref_out0 m' c, h0 c, h1 c]

/-- Likewise the second result, given that the second call (entered with the two arrays exchanged) leaves the row maxima
    of its own two input arrays: both sides are the closing stretch applied to the column maxima. -/
theorem out1_eq
    (m' : (ℓ : Loc Cert.ReferenceIdeal.nD Cert.ReferenceIdeal.τ Cert.ReferenceIdeal.sig) → Buf (Elt Ideal) ℓ)
    (h0 : ∀ c : Dev nD, m' ((c.tc : Thread Cert.ReferenceIdeal.nD Cert.ReferenceIdeal.τ).loc Cert.ReferenceIdeal.main_arg0) = m ((c.tc : Thread nD τ).loc main_arg0))
    (h1 : ∀ c : Dev nD, m' ((c.tc : Thread Cert.ReferenceIdeal.nD Cert.ReferenceIdeal.τ).loc Cert.ReferenceIdeal.main_arg1) = m ((c.tc : Thread nD τ).loc main_arg1))
    (harr1 : ∀ (V : (c : Dev nD) → (b : Ref sig .tc) → Buf (Elt Ideal) ((c : Thread nD τ).loc b)) (c : Dev nD),
        (dat1 (F := Ideal) V c).arrAt 2 cfg1.N = fun i => Cert.Spec.rowSup (V c (Pipeline.arrRef spec1 0)) (V c (Pipeline.arrRef spec1 1)) (i 0))
    (c : Dev nD) :
    B8 (F := Ideal) m ρ c (Proc.devRef .tc main_v55) = Cert.ReferenceIdeal.Value.res_main_v52 (F := Ideal) m' c := by
  rw [kernel_out1 m ρ harr1 c, ref_out1 m' c, h0 c, h1 c]

end Cert.KernelIdeal.Hand

end
-- ==== Proof.lean ====
/-
  The certificate of the tiled cosine-similarity maxima against their one-matrix reference.

  Both programs normalise the rows of the two [8192, 512] arrays and end with the same closing computation (the
  log-density of a maximum, its exponential, a sum, a sign). Between the two the reference forms the whole matrix of inner
  products of the normalised rows and takes its row maxima and its column maxima; the kernel program runs a tiled
  row-maximum kernel twice, the second time with the two arrays exchanged, each run walking 8 × 8 tiles of 1024 × 1024
  inner products and keeping per row a running maximum started at `-∞`.

  At the extended reals the change of float format before the kernel is the identity, a tile's matrix product and lane
  maximum are the sums and maxima they denote, the running maximum over the eight tiles of a row is the maximum over all
  8192 columns (`Cert.Spec.sup_blocks`), and the inner product is symmetric, so the exchanged run's row maxima are the
  column maxima (`Cert.Spec.rowSup_swap`). The frames: each program runs to the end with its arguments untouched — for
  the two kernel programs by the run of @main's eight items (`run_all`), the two calls each over the three control cases
  of the kernel body with the scratch column tracked; for the reference by its run read back.
-/
import proofs.«167242_j63737314673124_1_alg».proof.Defs
import proofs.«167242_j63737314673124_1_alg».proof.Proof.Gen.Kernel
import proofs.«167242_j63737314673124_1_alg».proof.Proof.Gen.Kernel.Skeleton
import proofs.«167242_j63737314673124_1_alg».proof.Proof.Gen.Kernel.Launch
import proofs.«167242_j63737314673124_1_alg».proof.Proof.Gen.Kernel.Regions
import proofs.«167242_j63737314673124_1_alg».proof.Proof.Gen.Kernel.Points
import proofs.«167242_j63737314673124_1_alg».proof.Proof.Gen.KernelIdeal
import proofs.«167242_j63737314673124_1_alg».proof.Proof.Gen.KernelIdeal.Skeleton
import proofs.«167242_j63737314673124_1_alg».proof.Proof.Gen.KernelIdeal.Launch
import proofs.«167242_j63737314673124_1_alg».proof.Proof.Gen.KernelIdeal.Regions
import proofs.«167242_j63737314673124_1_alg».proof.Proof.Gen.KernelIdeal.Points
import proofs.«167242_j63737314673124_1_alg».proof.Proof.Gen.ReferenceIdeal
import proofs.«167242_j63737314673124_1_alg».proof.Proof.Gen.ReferenceIdeal.Run
import proofs.«167242_j63737314673124_1_alg».proof.Proof.Gen.ReferenceIdeal.Read
import proofs.«167242_j63737314673124_1_alg».proof.Proof.Gen.Pre_finite_inputs
import proofs.«167242_j63737314673124_1_alg».proof.Proof.KbRun
import proofs.«167242_j63737314673124_1_alg».proof.Proof.KiRun
import proofs.«167242_j63737314673124_1_alg».proof.Proof.KiValue0
import proofs.«167242_j63737314673124_1_alg».proof.Proof.KiValue1
import proofs.«167242_j63737314673124_1_alg».proof.Proof.KiBridge
import Idealize.ShloMosaic.Adequacy
import Idealize.ShloMosaic.Init

noncomputable section

namespace Cert.Proof

open Idealize.ShloMosaic Idealize.ShloMosaic.TcCoe Idealize.SL.Sem

/-- The word-level program runs to the end and leaves its two arguments as launched. -/
theorem frame_kernel : Cert.frame_Kernel := fun m ρ _ => Cert.Kernel.Hand.frame_all (F := Bits) m ρ

/-- So does its reading over the extended reals. -/
theorem frame_kernelIdeal : Cert.frame_KernelIdeal := fun m ρ _ => Cert.KernelIdeal.Hand.frame_all (F := Ideal) m ρ

/-- The reference has no kernel: its frame is its run with the results dropped. -/
theorem frame_referenceIdeal : Cert.frame_ReferenceIdeal := fun m ρ _ =>
  (θ_run Cert.ReferenceIdeal.defs _ _).mono (fun _ h c => ⟨(h c).2.2.1, (h c).2.2.2⟩) (Cert.ReferenceIdeal.Value.run (F := Ideal) m ρ)

/-- From memories agreeing on the two arguments both programs end with the same two scalars: the kernel program's results,
    read off the last boundary of its run, are the reference's composed terms (`out0_eq`, `out1_eq`, over what the two
    calls leave in their output columns, `arrAt0_eq`, `arrAt1_eq`). -/
theorem algebraic : Cert.algebraic_KernelIdeal_ReferenceIdeal := by
  intro m ρ m' ρ' _ hagree
  refine ⟨fun c => Cert.ReferenceIdeal.Value.res_main_v48 (F := Ideal) m' c, fun c => Cert.ReferenceIdeal.Value.res_main_v52 (F := Ideal) m' c, ?_,
    Cert.ReferenceIdeal.Value.run (F := Ideal) m' ρ'⟩
  refine (θ_run Cert.KernelIdeal.defs _ _).mono (fun r h c => ⟨?_, ?_, ?_, ?_⟩) (Cert.KernelIdeal.Hand.run_all (F := Ideal) m ρ)
  · exact (h c _ (Cert.KernelIdeal.Hand.mem_uc Cert.KernelIdeal.main_v51 (by decide))).trans
      (Cert.KernelIdeal.Hand.out0_eq m ρ m' (fun c => (hagree c).1) (fun c => (hagree c).2) Cert.KernelIdeal.Hand.arrAt0_eq c)
  · exact (h c _ (Cert.KernelIdeal.Hand.mem_uc Cert.KernelIdeal.main_v55 (by decide))).trans
      (Cert.KernelIdeal.Hand.out1_eq m ρ m' (fun c => (hagree c).1) (fun c => (hagree c).2) Cert.KernelIdeal.Hand.arrAt1_eq c)
  · exact (h c _ (Cert.KernelIdeal.Hand.mem_uc Cert.KernelIdeal.main_arg0 (by decide))).trans (Cert.KernelIdeal.Hand.B8_arg0 m ρ c)
  · exact (h c _ (Cert.KernelIdeal.Hand.mem_uc Cert.KernelIdeal.main_arg1 (by decide))).trans (Cert.KernelIdeal.Hand.B8_arg1 m ρ c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
